-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S128x40 .f32) (main_arg10 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_c_16 : IVec S_ 32 := constantI S_ 32 4294867296#32
  let main_v44 : IVec S1600000 32 := broadcastInDim S1600000 ![] bcast_S_S1600000 main_c_16
  let main_v45 : IVec S1600000 1 := cmpi .sge main_arg1 main_v44
  let main_c_17 : IVec S_ 32 := constantI S_ 32 100000#32
  let main_v46 : IVec S1600000 32 := broadcastInDim S1600000 ![] bcast_S_S1600000 main_c_17
  let main_v47 : IVec S1600000 1 := cmpi .slt main_arg1 main_v46
  let main_v48 : IVec S1600000 1 := andi main_v45 main_v47
  let main_c_18 : IVec S_ 1 := constantI S_ 1 1#1
  let main_v49 : IVec S_ 1 := (fun x v => Host.reduce IntOp.andi x v reducesTo_S1600000_S_d0 h_S_) main_v48 main_c_18
  let main_v50 : IVec S_ 1 := andi main_v43 main_v49
  main_v50

def fn_part1 {F : FTy → Type} [FloatOps F] (main_arg1 : IVec S1600000 32) (main_arg6 : FVec F S128 .f32) (main_arg7 : FVec F S128x128 .f32) (main_arg8 : FVec F S128 .f32) (main_arg9 : FVec F S128x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 143
  | .vmem => 48
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x40, .f32⟩
  | 10 => ⟨S40, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1, .i32⟩
  | 56 => ⟨S_, .i32⟩
  | 57 => ⟨S1600000x1, .i32⟩
  | 58 => ⟨S1600000x1, .i1⟩
  | 59 => ⟨S1x1, .i32⟩
  | 60 => ⟨S1600000x1, .i32⟩
  | 61 => ⟨S1600000x1, .i1⟩
  | 62 => ⟨S1600000x1, .i1⟩
  | 63 => ⟨S_, .i1⟩
  | 64 => ⟨S1600000, .i1⟩
  | 65 => ⟨S1600000x128, .f32⟩
  | 66 => ⟨S1600000x128, .i1⟩
  | 67 => ⟨S_, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x1, .f32⟩
  | 75 => ⟨S1x128, .f32⟩
  | 76 => ⟨S100000x128, .f32⟩
  | 77 => ⟨S100000x1, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1, .i32⟩
  | 88 => ⟨S_, .i32⟩
  | 89 => ⟨S1600000x1, .i32⟩
  | 90 => ⟨S1600000x1, .i1⟩
  | 91 => ⟨S1x1, .i32⟩
  | 92 => ⟨S1600000x1, .i32⟩
  | 93 => ⟨S1600000x1, .i1⟩
  | 94 => ⟨S1600000x1, .i1⟩
  | 95 => ⟨S_, .i1⟩
  | 96 => ⟨S1600000, .i1⟩
  | 97 => ⟨S1600000x128, .f32⟩
  | 98 => ⟨S1600000x128, .i1⟩
  | 99 => ⟨S_, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x1, .f32⟩
  | 107 => ⟨S1x128, .f32⟩
  | 108 => ⟨S100000x128, .f32⟩
  | 109 => ⟨S100000x1, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1, .i32⟩
  | 120 => ⟨S_, .i32⟩
  | 121 => ⟨S1600000x1, .i32⟩
  | 122 => ⟨S1600000x1, .i1⟩
  | 123 => ⟨S1x1, .i32⟩
  | 124 => ⟨S1600000x1, .i32⟩
  | 125 => ⟨S1600000x1, .i1⟩
  | 126 => ⟨S1600000x1, .i1⟩
  | 127 => ⟨S_, .i1⟩
  | _ => ⟨S100000x128, .f32⟩

abbrev hbmTy0_1 (i : Nat) : BufTy := match i % 128 with
  | 0 => ⟨S1600000, .i1⟩
  | 1 => ⟨S1600000x128, .f32⟩
  | 2 => ⟨S1600000x128, .i1⟩
  | 3 => ⟨S_, .f32⟩
  | 4 => ⟨S1600000x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x1, .f32⟩
  | 11 => ⟨S1x128, .f32⟩
  | 12 => ⟨S100000x128, .f32⟩
  | 13 => ⟨S1x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x40, .f32⟩
  | .local _ .vmem, ⟨45, _⟩ => ⟨S1x40, .f32⟩
  | .local _ .vmem, ⟨46, _⟩ => ⟨S5000x40, .f32⟩
  | .local _ .vmem, ⟨47, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v22 : Ref sig .tc := ⟨.hbm, 69, rfl⟩
abbrev main_cst_9 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v31 : Ref sig .tc := ⟨.hbm, 101, rfl⟩
abbrev main_cst_10 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v40 : Ref sig .tc := ⟨.hbm, 133, rfl⟩
abbrev main_cst_11 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S40_S1x40_1 : S40.BroadcastsInDim S1x40 (![1] : Fin 1 → Fin S1x40.rank)
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x40.size a ≤ S100000x40.size a
  hwx6_3 : ∀ i : grid6.Coords, EltTy.bits .f32 = 32 ∨ (Rect.block (s := S100000x40) S5000x40.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v39) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v46) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v47) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v48) S5000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x40, .f32⟩
  | 10 => ⟨S40, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S100000x128, .f32⟩
  | 46 => ⟨S100000x1, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .i1⟩
  | 80 => ⟨S_, .f32⟩
  | 81 => ⟨S100000, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .f32⟩
  | 89 => ⟨S1600000, .f32⟩
  | 90 => ⟨S_, .f32⟩
  | 91 => ⟨S100000, .f32⟩
  | 92 => ⟨S1600000x1, .i32⟩
  | 93 => ⟨S100000, .f32⟩
  | 94 => ⟨S_, .f32⟩
  | 95 => ⟨S100000, .f32⟩
  | 96 => ⟨S100000, .i1⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S100000x128, .f32⟩
  | 106 => ⟨S100000x1, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S1600000, .f32⟩
  | 5 => ⟨S_, .f32⟩
  | 6 => ⟨S100000, .f32⟩
  | 7 => ⟨S1600000x1, .i32⟩
  | 8 => ⟨S100000, .f32⟩
  | 9 => ⟨S_, .f32⟩
  | 10 => ⟨S100000, .f32⟩
  | 11 => ⟨S100000, .i1⟩
  | 12 => ⟨S_, .f32⟩
  | 13 => ⟨S100000, .f32⟩
  | 14 => ⟨S100000, .f32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S100000x128, .f32⟩
  | 38 => ⟨S100000x1, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x40, .f32⟩
  | 64 => ⟨S1x40, .f32⟩
  | 65 => ⟨S100000x40, .f32⟩
  | 66 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_cst : Ref sig .tc := ⟨.hbm, 68, rfl⟩
abbrev main_call2_v0 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_15 : Ref sig .tc := ⟨.hbm, 84, rfl⟩
abbrev main_call3_v0 : Ref sig .tc := ⟨.hbm, 85, rfl⟩
abbrev main_call3_v1 : Ref sig .tc := ⟨.hbm, 86, rfl⟩
abbrev main_v50 : Ref sig .tc := ⟨.hbm, 87, rfl⟩
abbrev main_cst_16 : Ref sig .tc := ⟨.hbm, 88, rfl⟩
abbrev main_v51 : Ref sig .tc := ⟨.hbm, 89, rfl⟩
abbrev main_cst_17 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_18 : Ref sig .tc := ⟨.hbm, 94, rfl⟩
abbrev main_v55 : Ref sig .tc := ⟨.hbm, 95, rfl⟩
abbrev main_v56 : Ref sig .tc := ⟨.hbm, 96, rfl⟩
abbrev main_cst_19 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_20 : Ref sig .tc := ⟨.hbm, 101, rfl⟩
abbrev main_call4_v0 : Ref sig .tc := ⟨.hbm, 102, rfl⟩
abbrev main_call4_v1 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_21 : Ref sig .tc := ⟨.hbm, 109, rfl⟩
abbrev main_v65 : Ref sig .tc := ⟨.hbm, 110, rfl⟩
abbrev main_v66 : Ref sig .tc := ⟨.hbm, 111, rfl⟩
abbrev main_c_22 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_23 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call5_cst : Ref sig .tc := ⟨.hbm, 128, rfl⟩
abbrev main_call5_v0 : Ref sig .tc := ⟨.hbm, 129, rfl⟩
abbrev main_v81 : Ref sig .tc := ⟨.hbm, 130, rfl⟩
abbrev main_cst_24 : Ref sig .tc := ⟨.hbm, 131, rfl⟩
abbrev main_v82 : Ref sig .tc := ⟨.hbm, 132, rfl⟩
abbrev main_cst_25 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_26 : Ref sig .tc := ⟨.hbm, 137, rfl⟩
abbrev main_v86 : Ref sig .tc := ⟨.hbm, 138, rfl⟩
abbrev main_v87 : Ref sig .tc := ⟨.hbm, 139, rfl⟩
abbrev main_cst_27 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_28 : Ref sig .tc := ⟨.hbm, 144, rfl⟩
abbrev main_call6_v0 : Ref sig .tc := ⟨.hbm, 145, rfl⟩
abbrev main_call6_v1 : Ref sig .tc := ⟨.hbm, 146, rfl⟩
abbrev main_v91 : Ref sig .tc := ⟨.hbm, 147, rfl⟩
abbrev main_cst_29 : Ref sig .tc := ⟨.hbm, 148, rfl⟩
abbrev main_v92 : Ref sig .tc := ⟨.hbm, 149, rfl⟩
abbrev main_cst_30 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_31 : Ref sig .tc := ⟨.hbm, 154, rfl⟩
abbrev main_v96 : Ref sig .tc := ⟨.hbm, 155, rfl⟩
abbrev main_v97 : Ref sig .tc := ⟨.hbm, 156, rfl⟩
abbrev main_cst_32 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_33 : Ref sig .tc := ⟨.hbm, 161, rfl⟩
abbrev main_call7_v0 : Ref sig .tc := ⟨.hbm, 162, rfl⟩
abbrev main_call7_v1 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_c_34 : Ref sig .tc := ⟨.hbm, 169, rfl⟩
abbrev main_v106 : Ref sig .tc := ⟨.hbm, 170, rfl⟩
abbrev main_v107 : Ref sig .tc := ⟨.hbm, 171, rfl⟩
abbrev main_c_35 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_36 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call8_cst : Ref sig .tc := ⟨.hbm, 188, rfl⟩
abbrev main_call8_v0 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  What each dense stage of the graph convolution computes, as one function of whole arrays over the extended reals.

  Rows are nodes (100000 of them), columns are features (128, or 40 classes at the end); `ns` and `nd` are the
  degree normalisations as columns, a bias is a row.
    message   msg[r, c] = (∑ₖ h[r, k] · W[k, c]) · ns[r]
    finish    out[r, c] = max (agg[r, c] · nd[r] + b[c]) 0
    classify  out[r, c] = (∑ₖ h[r, k] · Wc[k, c]) + bc[c]
  The kernel computes each of these block of 5000 rows by block; the reference computes them in one piece.
-/
import Idealize.ShloMosaic.PureOps.Ideal
import Idealize.ShloMosaic.Lib.ValueIdx

noncomputable section

namespace Cert.Proof.Spec

open Idealize.ShloMosaic Idealize.ShloMosaic.ValueIdx

/-- One entry of the message table: the row of `h` against the column of `W`, scaled by the row's source normalisation. -/
def msgAt (h : FVec Ideal ⟨2, ![100000, 128]⟩ .f32) (W : FVec Ideal ⟨2, ![128, 128]⟩ .f32)
    (ns : FVec Ideal ⟨2, ![100000, 1]⟩ .f32) (r : Fin 100000) (c : Fin 128) : EReal :=
  (∑ k : Fin 128, h (ix2 r k) * W (ix2 k c)) * ns (ix2 r (0 : Fin 1))

/-- The message table. -/
def msgOf (h : FVec Ideal ⟨2, ![100000, 128]⟩ .f32) (W : FVec Ideal ⟨2, ![128, 128]⟩ .f32)
    (ns : FVec Ideal ⟨2, ![100000, 1]⟩ .f32) : FVec Ideal ⟨2, ![100000, 128]⟩ .f32 :=
  fun i => msgAt h W ns (i 0) (i 1)

/-- One entry of a finished layer: the aggregate scaled by the row's destination normalisation, plus the bias, clipped at zero
    (the zero is the f32 zero word read at the ideal instance, as both programs print it). -/
def finAt (agg : FVec Ideal ⟨2, ![100000, 128]⟩ .f32) (nd : FVec Ideal ⟨2, ![100000, 1]⟩ .f32)
    (b : FVec Ideal ⟨2, ![1, 128]⟩ .f32) (r : Fin 100000) (c : Fin 128) : EReal :=
  max (agg (ix2 r c) * nd (ix2 r (0 : Fin 1)) + b (ix2 (0 : Fin 1) c)) (Ideal.ofBits .f32 0x00000000#32)

/-- A finished layer. -/
def finOf (agg : FVec Ideal ⟨2, ![100000, 128]⟩ .f32) (nd : FVec Ideal ⟨2, ![100000, 1]⟩ .f32)
    (b : FVec Ideal ⟨2, ![1, 128]⟩ .f32) : FVec Ideal ⟨2, ![100000, 128]⟩ .f32 :=
  fun i => finAt agg nd b (i 0) (i 1)

/-- One logit: the row of `h` against the class's column, plus the class bias. -/
def clsAt (h : FVec Ideal ⟨2, ![100000, 128]⟩ .f32) (Wc : FVec Ideal ⟨2, ![128, 40]⟩ .f32)
    (bc : FVec Ideal ⟨2, ![1, 40]⟩ .f32) (r : Fin 100000) (c : Fin 40) : EReal :=
  (∑ k : Fin 128, h (ix2 r k) * Wc (ix2 k c)) + bc (ix2 (0 : Fin 1) c)

/-- The logits. -/
def clsOf (h : FVec Ideal ⟨2, ![100000, 128]⟩ .f32) (Wc : FVec Ideal ⟨2, ![128, 40]⟩ .f32)
    (bc : FVec Ideal ⟨2, ![1, 40]⟩ .f32) : FVec Ideal ⟨2, ![100000, 40]⟩ .f32 :=
  fun i => clsAt h Wc bc (i 0) (i 1)

end Cert.Proof.Spec

end
-- ==== Proof.IndexWrap.lean ====
/-
  One index word of the edge list, wrapped the way both programs wrap it.

  Both programs read row `src[e]` of the message table after the same adjustment of a negative index:
  `w' = if w < 0 then w + 100000 else w` (32-bit words, the comparison signed). When `-100000 ≤ w < 100000`
  the adjusted word lies in `[0, 99999]`: a negative `w` moves up by exactly the number of rows without
  wrapping around the word, a nonnegative one is kept. The kernel's gather tests exactly this range
  (`0 ≤ w'` and `w' ≤ 99999`) before it keeps the gathered row, so under the index-range precondition its
  test is always passed.
-/
import Idealize.ShloMosaic.Lib.Affine
import Idealize.ShloMosaic.Lib.ValueIdx

namespace Cert.Proof.IndexWrap

open Idealize.ShloMosaic

/-- The adjusted word of an index word. -/
def wrap (w : BitVec 32) : BitVec 32 :=
  Scalar.select (IntOp.cmpi .slt w 0#32) (IntOp.addi w 100000#32) w

/-- For `-100000 ≤ w < 100000` (signed) the adjusted word is in `[0, 99999]`: both range tests answer `1`. -/
theorem wrap_in_range (w : BitVec 32)
    (hlo : IntOp.cmpi .sge w 4294867296#32 = 1#1) (hhi : IntOp.cmpi .slt w 100000#32 = 1#1) :
    IntOp.andi (IntOp.cmpi .sge (wrap w) 0#32) (IntOp.cmpi .sle (wrap w) 99999#32) = 1#1 := by
  rw [IntOp.cmpi_sge] at hlo
  rw [IntOp.cmpi_slt] at hhi
  have h1 : (4294867296#32 : BitVec 32).toInt = -100000 := by decide
  have h2 : (100000#32 : BitVec 32).toInt = 100000 := by decide
  rw [h1] at hlo
  rw [h2] at hhi
  rw [IntOp.andi_eq_one, IntOp.cmpi_sge, IntOp.cmpi_sle]
  have h0 : (0#32 : BitVec 32).toInt = 0 := by decide
  have h9 : (99999#32 : BitVec 32).toInt = 99999 := by decide
  rw [h0, h9]
  unfold wrap Scalar.select
  by_cases hneg : IntOp.cmpi .slt w 0#32 = 1
  · rw [if_pos hneg]
    have hneg1 : IntOp.cmpi .slt w 0#32 = 1#1 := hneg
    have hneg' : w.toInt < 0 := by
      have := (IntOp.cmpi_slt (x := w) (y := 0#32)).mp hneg1
      rwa [h0] at this
    have hadd : (IntOp.addi w 100000#32).toInt = w.toInt + 100000 := by
      unfold IntOp.addi
      rw [BitVec.toInt_add, h2]
      exact Int.bmod_eq_of_le (by omega) (by omega)
    rw [hadd]
    omega
  · rw [if_neg hneg]
    have hnn : 0 ≤ w.toInt := by
      by_contra hc
      apply hneg
      show IntOp.cmpi .slt w 0#32 = 1#1
      rw [IntOp.cmpi_slt, h0]
      omega
    omega

end Cert.Proof.IndexWrap
-- ==== Proof.TakeMask.lean ====
/-
  The kernel's row gather against the reference's.

  Both programs adjust a negative index by the number of rows and then gather rows of the message table; the kernel
  (`jnp.take`, fill mode) then keeps a gathered row only where the adjusted index lies in `[0, 99999]` and writes the
  NaN word elsewhere, while the reference (`msg[src]`) keeps every gathered row. Under the index-range precondition
  (`-100000 ≤ src[e] < 100000` for every edge `e`) the kernel's range test is passed at every edge
  (IndexWrap.lean), so its result IS the plain gather.
-/
import proofs.«408911_j78589311582712_1_alg».proof.Defs
import proofs.«408911_j78589311582712_1_alg».proof.Proof.Gen.KernelIdeal
import proofs.«408911_j78589311582712_1_alg».proof.Proof.Gen.Pre_finite_inputs
import proofs.«408911_j78589311582712_1_alg».proof.Proof.IndexWrap
import Idealize.ShloMosaic.Lib.ReduceAll
import Idealize.ShloMosaic.Lib.Affine
import Idealize.ShloMosaic.Lib.ValueIdx
import Idealize.ShloMosaic.Lib.StableHlo.Predicate

noncomputable section

namespace Cert.KernelIdeal.Take

open Cert.KernelIdeal Cert.KernelIdeal.Gen Idealize.ShloMosaic Idealize.ShloMosaic.TcCoe Idealize.SL.Sem

/-- The edge list's source indices after the adjustment of negative ones, as the column the gather reads. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The kernel's gather: rows at the adjusted indices, the NaN word where an adjusted index is outside `[0, 99999]`. -/
def takeFill {F : FTy → Type} [FloatOps F] (msg : FVec F S100000x128 .f32) (src : IVec S1600000 32) : FVec F S1600000x128 .f32 :=
  select
    (broadcastInDim S1600000x128 ![0] bcast_S1600000_S1600000x128_0
      (Host.reduce IntOp.andi
        (andi
          (cmpi .sge (wrapCol src) (broadcastInDim S1600000x1 ![] bcast_S_S1600000x1 (constantI S_ 32 0#32)))
          (cmpi .sle (wrapCol src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 msg (wrapCol src))
    (broadcastInDim S1600000x128 ![] bcast_S_S1600000x128 (constant S_ .f32 0x7FC00000#32))

/-- Every source index lies in `[-100000, 100000)`, read signed. -/
def InRange (src : IVec S1600000 32) : Prop :=
  ∀ e : S1600000.Idx, IntOp.cmpi .sge (src e) 4294867296#32 = 1#1 ∧ IntOp.cmpi .slt (src e) 100000#32 = 1#1

/-- A left fold by `and` from the word 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a (List.mem_cons_self ..), IntOp.andi_eq_one.2 ⟨rfl, rfl⟩]
    exact foldl_andi_one f l fun n hn => hl n (List.mem_cons_of_mem _ hn)

/-- A reduction by `and` from the initial word 1 over an array whose every word is 1 is 1 at every result index. -/
private theorem reduce_andi_one {s t u : Shape} {axes : List (Fin s.rank)} (x : s.Idx → BitVec 1)
    (init : u.Idx → BitVec 1) (hr : s.ReducesTo axes t) (hu : 0 < u.numel) (j : t.Idx)
    (hinit : init (Shape.Idx.first hu) = 1#1) (hx : ∀ i, x i = 1#1) :
    Host.reduce IntOp.andi x init hr hu j = 1#1 := by
  rw [Host.reduce_eq_foldl, hinit]
  exact foldl_andi_one x _ fun n _ => hx n

/-- Each word of the adjusted column is the adjusted word of one source index. -/
private theorem wrapCol_apply (src : IVec S1600000 32) (i : S1600000x1.Idx) :
    ∃ e : S1600000.Idx, wrapCol src i = Cert.Proof.IndexWrap.wrap (src e) :=
  ⟨_, rfl⟩

/-- With every index in range the kernel's gather keeps every row: it is the plain gather. -/
theorem takeFill_eq_gather (msg : FVec Ideal S100000x128 .f32) (src : IVec S1600000 32) (h : InRange src) :
    takeFill msg src = Host.gather gather_S100000x128_S1600000x1_S1600000x128_1_0_n_n_0_1_1128 msg (wrapCol src) := by
  funext j
  unfold takeFill
  rw [ValueIdx.select_apply]
  -- the mask at `j`: the reduction, read at the row of `j`, of range tests that all answer 1
  have hm : ∀ k : S1600000.Idx,
      Host.reduce IntOp.andi
        (andi
          (cmpi .sge (wrapCol src) (broadcastInDim S1600000x1 ![] bcast_S_S1600000x1 (constantI S_ 32 0#32)))
          (cmpi .sle (wrapCol src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_ k = 1#1 := by
    intro k
    refine reduce_andi_one _ _ _ _ _ rfl fun i => ?_
    obtain ⟨e, he⟩ := wrapCol_apply src i
    show IntOp.andi (IntOp.cmpi .sge (wrapCol src i) 0#32) (IntOp.cmpi .sle (wrapCol src i) 99999#32) = 1#1
    rw [he]
    exact Cert.Proof.IndexWrap.wrap_in_range (src e) (h e).1 (h e).2
  rw [broadcastInDim, hm, ValueIdx.select_one]

/-- The precondition's last conjunct, read back: every source index is in range. -/
theorem inRange_of_pre (m : (ℓ : Loc nD τ sig) → Buf (Elt Ideal) ℓ) (hpre : Cert.Pre_KernelIdeal m) (c : Dev nD) :
    InRange (m ((c.tc : Thread nD τ).loc main_arg1)) := by
  -- the predicate's one word is the `and` of the finiteness conjuncts with the reduction of the index-range tests
  have h0 := congrFun (hpre c) ValueIdx.ix0
  have h1 : IntOp.andi _
      (Host.reduce IntOp.andi
        (andi
          (cmpi .sge (m ((c.tc : Thread nD τ).loc main_arg1))
            (broadcastInDim Cert.Pre_finite_inputs.S1600000 ![] Cert.Pre_finite_inputs.Facts.bcast_S_S1600000
              (constantI Cert.Pre_finite_inputs.S_ 32 4294867296#32)))
          (cmpi .slt (m ((c.tc : Thread nD τ).loc main_arg1))
            (broadcastInDim Cert.Pre_finite_inputs.S1600000 ![] Cert.Pre_finite_inputs.Facts.bcast_S_S1600000
              (constantI Cert.Pre_finite_inputs.S_ 32 100000#32))))
        (constantI Cert.Pre_finite_inputs.S_ 1 1#1) Cert.Pre_finite_inputs.Facts.reducesTo_S1600000_S_d0
        Cert.Pre_finite_inputs.Facts.h_S_ ValueIdx.ix0) = 1#1 := h0
  have h2 := (IntOp.andi_eq_one.1 h1).2
  -- the reduction runs over every edge, so every edge's pair of tests answers 1
  haveI : Subsingleton Cert.Pre_finite_inputs.S_.Idx := ⟨fun a b => funext fun d => d.elim0⟩
  intro e
  have he : IntOp.andi (IntOp.cmpi .sge (m ((c.tc : Thread nD τ).loc main_arg1) e) 4294867296#32)
      (IntOp.cmpi .slt (m ((c.tc : Thread nD τ).loc main_arg1) e) 100000#32) = 1#1 :=
    Host.reduce_andi_all _ _ _ _ _ h2 e
  exact IntOp.andi_eq_one.1 he

end Cert.KernelIdeal.Take

end
-- ==== Proof.KernelTerms.lean ====
/-
  The kernel's whole computation as one function of its eleven arguments, over the extended reals.

  Degree normalisation of an index list `idx`: `deg = ` the number of edges at each node (a scatter-add of ones into
  zeros), `norm = if deg > 0 then rsqrt (max deg 1) else 0`. One layer: the message table of the features
  (Spec.msgOf, scaled by the source normalisation), its rows gathered at the edges' sources and summed into the
  edges' destinations, then the finishing stage (Spec.finOf, scaled by the destination normalisation, bias, clip).
  Three layers, then the classifier (Spec.clsOf). The host-side pieces are stated for any float family (they are the
  same operations whatever the floats are); the layers and the result are read over the extended reals.
-/
import proofs.«408911_j78589311582712_1_alg».proof.Proof.Gen.KernelIdeal
import proofs.«408911_j78589311582712_1_alg».proof.Proof.Spec
import proofs.«408911_j78589311582712_1_alg».proof.Proof.TakeMask

noncomputable section

namespace Cert.KernelIdeal.Terms

open Cert.KernelIdeal Cert.KernelIdeal.Gen Idealize.ShloMosaic Cert.Proof.Spec Cert.KernelIdeal.Take

section AnyFloats

variable {F : FTy → Type} [FloatOps F]

/-- The number of edges at each node, as a float vector. -/
def degOf (idx : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree normalisation: `rsqrt (max deg 1)` where the degree is positive, zero elsewhere. -/
def normOf (idx : IVec S1600000 32) : FVec F S100000 .f32 :=
  select (cmpf (F := F) .ogt (degOf idx) (broadcastInDim S100000 ![] bcast_S_S100000 (constant S_ .f32 0x00000000#32)))
    (Host.rsqrt (maximumf (degOf idx) (broadcastInDim S100000 ![] bcast_S_S100000 (constant S_ .f32 0x3F800000#32))))
    (broadcastInDim S100000 ![] bcast_S_S100000 (id (constant S_ .f32 0x00000000#32)))

/-- A vector over the nodes as a column. -/
def colOf (v : FVec F S100000 .f32) : FVec F S100000x1 .f32 :=
  broadcastInDim S100000x1 ![0] bcast_S100000_S100000x1_0 v

/-- A hidden-layer bias as a row. -/
def rowOf (b : FVec F S128 .f32) : FVec F S1x128 .f32 :=
  broadcastInDim S1x128 ![1] bcast_S128_S1x128_1 b

/-- The class bias as a row. -/
def rowOfC (b : FVec F S40 .f32) : FVec F S1x40 .f32 :=
  broadcastInDim S1x40 ![1] bcast_S40_S1x40_1 b

/-- The messages gathered at the edges' sources (the kernel's gather) and summed into the edges' destinations. -/
def aggOf (msg : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (takeFill msg src)

end AnyFloats

/-- One graph-convolution layer followed by the clip at zero. -/
def layerOf (h : FVec Ideal S100000x128 .f32) (W : FVec Ideal S128x128 .f32) (b : FVec Ideal S128 .f32)
    (src dst : IVec S1600000 32) : FVec Ideal S100000x128 .f32 :=
  finOf (aggOf (msgOf h W (colOf (normOf src))) src dst) (colOf (normOf dst)) (rowOf b)

/-- The kernel's result: three layers and the classifier. -/
def outOf (x : FVec Ideal S100000x128 .f32) (src dst : IVec S1600000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (Wc : FVec Ideal S128x40 .f32) (bc : FVec Ideal S40 .f32) :
    FVec Ideal S100000x40 .f32 :=
  clsOf (layerOf (layerOf (layerOf x W1 b1 src dst) W2 b2 src dst) W3 b3 src dst) Wc (rowOfC bc)

end Cert.KernelIdeal.Terms

end
-- ==== Proof.KernelHost.lean ====
/-
  What each stretch of host operations between two kernel regions leaves in the buffers the next region reads.

  After a message region: the rows of its output gathered at the edges' sources and added into the edges' destinations
  (`Terms.aggOf`), the destination normalisation as a column, the layer's bias as a row. Before a message region: the source
  normalisation as a column; the previous region's output is untouched. Before the classifier: the class bias as a row.
  These are statements about which operation writes which buffer, so they hold for any float family.
-/
import proofs.«408911_j78589311582712_1_alg».proof.Proof.Gen.KernelIdeal.Frame
import proofs.«408911_j78589311582712_1_alg».proof.Proof.KernelTerms
import Idealize.ShloMosaic.Lib.StableHlo.Run

set_option maxRecDepth 16384

noncomputable section

namespace Cert.KernelIdeal.HostEval

open Cert.KernelIdeal Cert.KernelIdeal.Gen
open Idealize.ShloMosaic Idealize.ShloMosaic.TcCoe Idealize.SL.Sem Idealize.ShloMosaic.StableHlo
open Cert.KernelIdeal.Terms

variable {F : FTy → Type} [FloatOps F] (m : (ℓ : Loc nD τ sig) → Buf (Elt F) ℓ) (ρ : Dev nD → PrngReg)

/-- What a stretch of host operations leaves in a buffer: its operations evaluated, one after the other. -/
macro "eval_host" : tactic => `(tactic| (after_results_simp; all_goals rfl))

/-! ## A gathered table passes through typed buffers

The gather is an outlined function: its operations store each value at the value's own tensor type and read it back at
that type, through the buffer's type equation. Storing then reading is the identity; and at a buffer whose type IS the
value's (every buffer here) a single store or read is the identity too. -/

/-- Reading back, at a tensor value's type, what was stored at that type is the value: the two transports along the
    buffer's type equation cancel. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

theorem ofBuf_src (v : (⟨S1600000, .i32⟩ : BufTy).Contents (Elt F)) :
    (StableHlo.TRef.of (sig := sig) (T := ⟨S1600000, .i32⟩) main_arg1).ofBuf v = v := rfl
theorem ofBuf_msg1 (v : (⟨S100000x128, .f32⟩ : BufTy).Contents (Elt F)) :
    (StableHlo.TRef.of (sig := sig) (T := ⟨S100000x128, .f32⟩) main_v21).ofBuf v = v := rfl
theorem ofBuf_msg2 (v : (⟨S100000x128, .f32⟩ : BufTy).Contents (Elt F)) :
    (StableHlo.TRef.of (sig := sig) (T := ⟨S100000x128, .f32⟩) main_v30).ofBuf v = v := rfl
theorem ofBuf_msg3 (v : (⟨S100000x128, .f32⟩ : BufTy).Contents (Elt F)) :
    (StableHlo.TRef.of (sig := sig) (T := ⟨S100000x128, .f32⟩) main_v39).ofBuf v = v := rfl
theorem toBuf_take1 (v : (⟨S1600000x128, .f32⟩ : BufTy).Contents (Elt F)) :
    (StableHlo.TRef.of (sig := sig) (T := ⟨S1600000x128, .f32⟩) main_v22).toBuf v = v := rfl
theorem toBuf_take2 (v : (⟨S1600000x128, .f32⟩ : BufTy).Contents (Elt F)) :
    (StableHlo.TRef.of (sig := sig) (T := ⟨S1600000x128, .f32⟩) main_v31).toBuf v = v := rfl
theorem toBuf_take3 (v : (⟨S1600000x128, .f32⟩ : BufTy).Contents (Elt F)) :
    (StableHlo.TRef.of (sig := sig) (T := ⟨S1600000x128, .f32⟩) main_v40).toBuf v = v := rfl

/-- The aggregate after a gather: the operations evaluated, the typed buffers' transports removed. -/
macro "eval_agg" : tactic => `(tactic| (after_results_simp; simp only [ofBuf_toBuf, ofBuf_src, ofBuf_msg1, ofBuf_msg2, ofBuf_msg3, toBuf_take1, toBuf_take2, toBuf_take3]; rfl))

/-! ## After the first message region -/

/-- The first layer's aggregate. -/
theorem h1_agg (c : Dev nD) : W8 m ρ c (Proc.devRef .tc main_v25) = aggOf (W6 m ρ c (Proc.devRef .tc main_v21)) (W6 m ρ c (Proc.devRef .tc main_arg1)) (W6 m ρ c (Proc.devRef .tc main_arg2)) := by
  show StableHlo.after hostOps1_1 (StableHlo.after hostOps1 (W6 m ρ c)) _ = _
  simp only [hostOps1_1, hostOps1]
  eval_agg
/-- The destination normalisation as a column. -/
theorem h1_nd (c : Dev nD) : W8 m ρ c (Proc.devRef .tc main_v26) = colOf (W6 m ρ c (Proc.devRef .tc main_v19)) := by
  show StableHlo.after hostOps1_1 (StableHlo.after hostOps1 (W6 m ρ c)) _ = _
  simp only [hostOps1_1, hostOps1]
  eval_host
/-- The first bias as a row. -/
theorem h1_bias (c : Dev nD) : W8 m ρ c (Proc.devRef .tc main_v27) = rowOf (W6 m ρ c (Proc.devRef .tc main_arg4)) := by
  show StableHlo.after hostOps1_1 (StableHlo.after hostOps1 (W6 m ρ c)) _ = _
  simp only [hostOps1_1, hostOps1]
  eval_host
/-! ## Around the second message region -/

/-- The first layer's output is not written. -/
theorem h2_h (c : Dev nD) : W10 m ρ c (Proc.devRef .tc main_v28) = W9 m ρ c (Proc.devRef .tc main_v28) := by
  show StableHlo.after hostOps2 (W9 m ρ c) _ = _
  simp only [hostOps2]
  eval_host
/-- The source normalisation as a column. -/
theorem h2_ns (c : Dev nD) : W10 m ρ c (Proc.devRef .tc main_v29) = colOf (W9 m ρ c (Proc.devRef .tc main_v9)) := by
  show StableHlo.after hostOps2 (W9 m ρ c) _ = _
  simp only [hostOps2]
  eval_host
/-- The second layer's aggregate. -/
theorem h3_agg (c : Dev nD) : W13 m ρ c (Proc.devRef .tc main_v34) = aggOf (W11 m ρ c (Proc.devRef .tc main_v30)) (W11 m ρ c (Proc.devRef .tc main_arg1)) (W11 m ρ c (Proc.devRef .tc main_arg2)) := by
  show StableHlo.after hostOps3_1 (StableHlo.after hostOps3 (W11 m ρ c)) _ = _
  simp only [hostOps3_1, hostOps3]
  eval_agg
/-- The destination normalisation as a column. -/
theorem h3_nd (c : Dev nD) : W13 m ρ c (Proc.devRef .tc main_v35) = colOf (W11 m ρ c (Proc.devRef .tc main_v19)) := by
  show StableHlo.after hostOps3_1 (StableHlo.after hostOps3 (W11 m ρ c)) _ = _
  simp only [hostOps3_1, hostOps3]
  eval_host
/-- The second bias as a row. -/
theorem h3_bias (c : Dev nD) : W13 m ρ c (Proc.devRef .tc main_v36) = rowOf (W11 m ρ c (Proc.devRef .tc main_arg6)) := by
  show StableHlo.after hostOps3_1 (StableHlo.after hostOps3 (W11 m ρ c)) _ = _
  simp only [hostOps3_1, hostOps3]
  eval_host
/-! ## Around the third message region -/

/-- The second layer's output is not written. -/
theorem h4_h (c : Dev nD) : W15 m ρ c (Proc.devRef .tc main_v37) = W14 m ρ c (Proc.devRef .tc main_v37) := by
  show StableHlo.after hostOps4 (W14 m ρ c) _ = _
  simp only [hostOps4]
  eval_host
/-- The source normalisation as a column. -/
theorem h4_ns (c : Dev nD) : W15 m ρ c (Proc.devRef .tc main_v38) = colOf (W14 m ρ c (Proc.devRef .tc main_v9)) := by
  show StableHlo.after hostOps4 (W14 m ρ c) _ = _
  simp only [hostOps4]
  eval_host
/-- The third layer's aggregate. -/
theorem h5_agg (c : Dev nD) : W18 m ρ c (Proc.devRef .tc main_v43) = aggOf (W16 m ρ c (Proc.devRef .tc main_v39)) (W16 m ρ c (Proc.devRef .tc main_arg1)) (W16 m ρ c (Proc.devRef .tc main_arg2)) := by
  show StableHlo.after hostOps5_1 (StableHlo.after hostOps5 (W16 m ρ c)) _ = _
  simp only [hostOps5_1, hostOps5]
  eval_agg
/-- The destination normalisation as a column. -/
theorem h5_nd (c : Dev nD) : W18 m ρ c (Proc.devRef .tc main_v44) = colOf (W16 m ρ c (Proc.devRef .tc main_v19)) := by
  show StableHlo.after hostOps5_1 (StableHlo.after hostOps5 (W16 m ρ c)) _ = _
  simp only [hostOps5_1, hostOps5]
  eval_host
/-- The third bias as a row. -/
theorem h5_bias (c : Dev nD) : W18 m ρ c (Proc.devRef .tc main_v45) = rowOf (W16 m ρ c (Proc.devRef .tc main_arg8)) := by
  show StableHlo.after hostOps5_1 (StableHlo.after hostOps5 (W16 m ρ c)) _ = _
  simp only [hostOps5_1, hostOps5]
  eval_host
/-! ## Before the classifier -/

/-- The third layer's output is not written. -/
theorem h6_h (c : Dev nD) : W20 m ρ c (Proc.devRef .tc main_v46) = W19 m ρ c (Proc.devRef .tc main_v46) := by
  show StableHlo.after hostOps6 (W19 m ρ c) _ = _
  simp only [hostOps6]
  eval_host
/-- The class bias as a row. -/
theorem h6_bias (c : Dev nD) : W20 m ρ c (Proc.devRef .tc main_v47) = rowOfC (W19 m ρ c (Proc.devRef .tc main_arg10)) := by
  show StableHlo.after hostOps6 (W19 m ρ c) _ = _
  simp only [hostOps6]
  eval_host
end Cert.KernelIdeal.HostEval

end
-- ==== Proof.RegionMsg0.lean ====
/-
  Region 0 of the kernel (a message stage): what its output array holds when the region ends.

  The grid has 20 points; point `t` reads rows `5000·t … 5000·t + 4999` of the feature array and of the normalisation
  column, the whole weight matrix, and writes the same rows of the output. Its body computes, for row `p` of the block and
  column `q`, `(∑ₖ x[p, k] · W[k, q]) · ns[p]` (the bf16 casts are the identity on the extended reals, and the matrix
  unit accumulates into zero). The 20 blocks tile the 100000 rows, so the output array is `Spec.msgOf` of the three
  input arrays as the region finds them.
-/
import proofs.«408911_j78589311582712_1_alg».proof.Proof.Gen.KernelIdeal.Frame
import proofs.«408911_j78589311582712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.Spec

/-! ## The body's arithmetic at one entry of the block -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit into a zero accumulator, at entry (p, q): the sum over the 128 contracted coordinates. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The normalisation column spread along the features, at entry (p, q): the column's entry of row p. -/
theorem col_at (x2 : FVec Ideal S5000x1 .f32) (p : Fin 5000) (q : Fin 128) :
    broadcastTo S5000x128 x2 broadcasts_S5000x1_S5000x128 (ix2 p q) = x2 (ix2 p (0 : Fin 1)) :=
  broadcastTo_apply x2 broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The body's stored value at entry (p, q) of the block. -/
theorem pay_at (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  show mulf (matmul dot_S5000x128_S128x128_S5000x128_1_0_0_1_n_n none (truncf .bf16 x0 bitsLt_bf16_f32) (truncf .bf16 x1 bitsLt_bf16_f32) (constant (F := Ideal) S5000x128 .f32 0x00000000#32))
      (broadcastTo S5000x128 (shapeCast S5000x1 x2 shapeCasts_S5000x1_S5000x1) broadcasts_S5000x1_S5000x128) (ix2 p q) = _
  rw [mulf_apply, matmul_at, shapeCast_self, col_at]
  rfl

/-! ## The blocks -/

theorem hz : (![0, 0] : Fin 2 → Nat) = fun _ => 0 := funext fun a => by fin_cases a <;> rfl

/-- The printed index maps, decided over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 20 := by
  have h := t.isLt
  have e : cfg0.N = 20 := N_0
  omega

variable (V : (c : Dev nD) → (b : Ref sig .tc) → Buf (Elt Ideal) ((c : Thread nD τ).loc b))

/-- Row `p` of point `t`'s block of the feature array is row `5000·t + p` of the array. -/
theorem feat_read (c : Dev nD) (t : Fin cfg0.N) (p : Fin 5000) (k : Fin 128) (hr : t.val * 5000 + p.val < 100000) :
    iblk0 V c 0 t (ix2 p k) = (V c main_arg0 : Vec Ideal S100000x128 .f32) (ix2 ⟨t.val * 5000 + p.val, hr⟩ k) := by
  show (V c main_arg0 : Vec Ideal S100000x128 .f32) (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight window's one block is the whole matrix. -/
theorem weight_read (c : Dev nD) (t : Fin cfg0.N) (k : Fin 128) (q : Fin 128) :
    iblk0 V c 1 t (ix2 k q) = (V c main_arg3 : Vec Ideal S128x128 .f32) (ix2 k q) := by
  show (V c main_arg3 : Vec Ideal S128x128 .f32) (((cfg0.win 1).blk t).view.emb (ix2 k q)) = _
  refine congrArg _ (funext fun a => Fin.ext ?_)
  obtain ⟨-, -, e2, e3, -⟩ := idx_facts t
  match a with
  | ⟨0, _⟩ => show win0_1.index t (0 : Fin 2) * 128 + 1 * k.val = k.val; omega
  | ⟨1, _⟩ => show win0_1.index t (1 : Fin 2) * 128 + 1 * q.val = q.val; omega

/-- Row `p` of point `t`'s block of the normalisation column is row `5000·t + p` of the column. -/
theorem norm_read (c : Dev nD) (t : Fin cfg0.N) (p : Fin 5000) (hr : t.val * 5000 + p.val < 100000) :
    iblk0 V c 2 t (ix2 p (0 : Fin 1)) = (V c main_v20 : Vec Ideal S100000x1 .f32) (ix2 ⟨t.val * 5000 + p.val, hr⟩ (0 : Fin 1)) := by
  show (V c main_v20 : Vec Ideal S100000x1 .f32) (((cfg0.win 2).blk t).view.emb (ix2 p (0 : Fin 1))) = _
  refine congrArg _ (funext fun a => Fin.ext ?_)
  obtain ⟨-, -, -, -, e4, e5, -⟩ := idx_facts t
  match a with
  | ⟨0, _⟩ => show win0_2.index t (0 : Fin 2) * 5000 + 1 * p.val = t.val * 5000 + p.val; omega
  | ⟨1, _⟩ => show win0_2.index t (1 : Fin 2) * 1 + 1 * 0 = 0; omega

/-- WHAT POINT `t` WRITES BACK is block `t` of the message table of the arrays as the region finds them. -/
theorem flushed_eq (c : Dev nD) (t : Fin cfg0.N) :
    (dat0 V c).flushed 3 t = ((cfg0.win 3).blk t).view.read (Elt Ideal)
      (msgOf (V c main_arg0) (V c main_arg3) (V c main_v20)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have ht := t_lt t
  have hr : t.val * 5000 + p.val < 100000 := by have := p.isLt; omega
  refine (pay_at (iblk0 V c 0 t) (iblk0 V c 1 t) (iblk0 V c 2 t) p q).trans ?_
  have eo : ((cfg0.win 3).blk t).view.emb (ix2 p q) = (ix2 ⟨t.val * 5000 + p.val, hr⟩ q : S100000x128.Idx) := by
    funext a; apply Fin.ext
    obtain ⟨-, -, -, -, -, -, e6, e7⟩ := idx_facts t
    match a with
    | ⟨0, _⟩ => show win0_3.index t (0 : Fin 2) * 5000 + 1 * p.val = t.val * 5000 + p.val; omega
    | ⟨1, _⟩ => show win0_3.index t (1 : Fin 2) * 128 + 1 * q.val = q.val; omega
  show _ = msgOf (V c main_arg0) (V c main_arg3) (V c main_v20) (((cfg0.win 3).blk t).view.emb (ix2 p q))
  rw [eo]
  show _ = msgAt (V c main_arg0) (V c main_arg3) (V c main_v20) ⟨t.val * 5000 + p.val, hr⟩ q
  unfold msgAt
  rw [norm_read V c t p hr]
  refine congrArg (· * _) (Finset.sum_congr rfl fun k _ => ?_)
  rw [feat_read V c t p k hr, weight_read V c t k q]

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Every row of the output lies in the block of the point `row / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have e : cfg0.N = 20 := N_0
  let t : Fin cfg0.N := ⟨(i 0).val / 5000, by omega⟩
  refine ⟨t, flush0_3 t, ?_⟩
  rw [mem_blk]
  obtain ⟨-, -, -, -, -, -, e6, e7⟩ := idx_facts t
  have tv : t.val = (i 0).val / 5000 := rfl
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY when the region ends: the message table of the three input arrays as the region finds them. -/
theorem out_eq (c : Dev nD) :
    (dat0 V c).arrAt 3 cfg0.N = msgOf (V c main_arg0) (V c main_arg3) (V c main_v20) :=
  (dat0 V c).arrAt_eq_of_cover 3 _ (fun t _ => flushed_eq V c t) cover

end Cert.KernelIdeal.Region0

end
-- ==== Proof.RegionFin1.lean ====
/-
  Region 1 of the kernel (a finishing stage): what its output array holds when the region ends.

  The grid has 20 points; point `t` reads rows `5000·t … 5000·t + 4999` of the aggregate array and of the normalisation
  column, the whole bias row, and writes the same rows of the output. Its body computes, for row `p` of the block and
  column `q`, `max (x[p, q] · nd[p] + b[q]) 0` (the zero is the f32 zero word read at the ideal instance). The 20 blocks
  tile the 100000 rows, so the output array is `Spec.finOf` of the three input arrays as the region finds them.
-/
import proofs.«408911_j78589311582712_1_alg».proof.Proof.Gen.KernelIdeal.Frame
import proofs.«408911_j78589311582712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.Spec

/-! ## The body's arithmetic at one entry of the block -/

/-- The normalisation column spread along the features, at entry (p, q): the column's entry of row p. -/
theorem col_at (x : FVec Ideal S5000x1 .f32) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The bias row spread down the rows, at entry (p, q): the row's entry of column q. -/
theorem row_at (x : FVec Ideal S1x128 .f32) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The body's stored value at entry (p, q) of the block. -/
theorem pay_at (x0 : Vec Ideal S5000x128 .f32) (x1 : Vec Ideal S5000x1 .f32) (x2 : Vec Ideal S1x128 .f32) (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  show maximumf
      (addf (mulf (shapeCast S5000x128 x0 shapeCasts_S5000x128_S5000x128)
          (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
      (broadcast S5000x128 (Scalar.ofBits (F := Ideal) .f32 0x00000000#32)) (ix2 p q) = _
  rw [maximumf_apply, addf_apply, mulf_apply, broadcast_apply, shapeCast_self, shapeCast_self, shapeCast_self, col_at, row_at]
  rfl

/-! ## The blocks -/

theorem hz : (![0, 0] : Fin 2 → Nat) = fun _ => 0 := funext fun a => by fin_cases a <;> rfl

/-- The printed index maps, decided over the grid: the row windows move with the point, the bias window stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 20 := by
  have h := t.isLt
  have e : cfg1.N = 20 := N_1
  omega

variable (V : (c : Dev nD) → (b : Ref sig .tc) → Buf (Elt Ideal) ((c : Thread nD τ).loc b))

/-- Row `p` of point `t`'s block of the aggregate array is row `5000·t + p` of the array. -/
theorem agg_read (c : Dev nD) (t : Fin cfg1.N) (p : Fin 5000) (q : Fin 128) (hr : t.val * 5000 + p.val < 100000) :
    iblk1 V c 0 t (ix2 p q) = (V c main_v25 : Vec Ideal S100000x128 .f32) (ix2 ⟨t.val * 5000 + p.val, hr⟩ q) := by
  show (V c main_v25 : Vec Ideal S100000x128 .f32) (((cfg1.win 0).blk t).view.emb (ix2 p q)) = _
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * q.val = q.val; omega

/-- Row `p` of point `t`'s block of the normalisation column is row `5000·t + p` of the column. -/
theorem norm_read (c : Dev nD) (t : Fin cfg1.N) (p : Fin 5000) (hr : t.val * 5000 + p.val < 100000) :
    iblk1 V c 1 t (ix2 p (0 : Fin 1)) = (V c main_v26 : Vec Ideal S100000x1 .f32) (ix2 ⟨t.val * 5000 + p.val, hr⟩ (0 : Fin 1)) := by
  show (V c main_v26 : Vec Ideal S100000x1 .f32) (((cfg1.win 1).blk t).view.emb (ix2 p (0 : Fin 1))) = _
  refine congrArg _ (funext fun a => Fin.ext ?_)
  obtain ⟨-, -, e2, e3, -⟩ := idx_facts t
  match a with
  | ⟨0, _⟩ => show win1_1.index t (0 : Fin 2) * 5000 + 1 * p.val = t.val * 5000 + p.val; omega
  | ⟨1, _⟩ => show win1_1.index t (1 : Fin 2) * 1 + 1 * 0 = 0; omega

/-- The bias window's one block is the whole row. -/
theorem bias_read (c : Dev nD) (t : Fin cfg1.N) (q : Fin 128) :
    iblk1 V c 2 t (ix2 (0 : Fin 1) q) = (V c main_v27 : Vec Ideal S1x128 .f32) (ix2 (0 : Fin 1) q) := by
  show (V c main_v27 : Vec Ideal S1x128 .f32) (((cfg1.win 2).blk t).view.emb (ix2 (0 : Fin 1) q)) = _
  refine congrArg _ (funext fun a => Fin.ext ?_)
  obtain ⟨-, -, -, -, e4, e5, -⟩ := idx_facts t
  match a with
  | ⟨0, _⟩ => show win1_2.index t (0 : Fin 2) * 1 + 1 * 0 = 0; omega
  | ⟨1, _⟩ => show win1_2.index t (1 : Fin 2) * 128 + 1 * q.val = q.val; omega

/-- WHAT POINT `t` WRITES BACK is block `t` of the finished layer of the arrays as the region finds them. -/
theorem flushed_eq (c : Dev nD) (t : Fin cfg1.N) :
    (dat1 V c).flushed 3 t = ((cfg1.win 3).blk t).view.read (Elt Ideal)
      (finOf (V c main_v25) (V c main_v26) (V c main_v27)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have ht := t_lt t
  have hr : t.val * 5000 + p.val < 100000 := by have := p.isLt; omega
  refine (pay_at (iblk1 V c 0 t) (iblk1 V c 1 t) (iblk1 V c 2 t) p q).trans ?_
  have eo : ((cfg1.win 3).blk t).view.emb (ix2 p q) = (ix2 ⟨t.val * 5000 + p.val, hr⟩ q : S100000x128.Idx) := by
    funext a; apply Fin.ext
    obtain ⟨-, -, -, -, -, -, e6, e7⟩ := idx_facts t
    match a with
    | ⟨0, _⟩ => show win1_3.index t (0 : Fin 2) * 5000 + 1 * p.val = t.val * 5000 + p.val; omega
    | ⟨1, _⟩ => show win1_3.index t (1 : Fin 2) * 128 + 1 * q.val = q.val; omega
  show _ = finOf (V c main_v25) (V c main_v26) (V c main_v27) (((cfg1.win 3).blk t).view.emb (ix2 p q))
  rw [eo]
  show _ = finAt (V c main_v25) (V c main_v26) (V c main_v27) ⟨t.val * 5000 + p.val, hr⟩ q
  unfold finAt
  rw [agg_read V c t p q hr, norm_read V c t p hr, bias_read V c t q]

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28).slice (win1_3.rect t)).set ↔ _
  rw [View.set_slice_whole, Rect.mem_set_unit]
  exact Iff.rfl

/-- Every row of the output lies in the block of the point `row / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have e : cfg1.N = 20 := N_1
  let t : Fin cfg1.N := ⟨(i 0).val / 5000, by omega⟩
  refine ⟨t, flush1_3 t, ?_⟩
  rw [mem_blk]
  obtain ⟨-, -, -, -, -, -, e6, e7⟩ := idx_facts t
  have tv : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY when the region ends: the finished layer of the three input arrays as the region finds them. -/
theorem out_eq (c : Dev nD) :
    (dat1 V c).arrAt 3 cfg1.N = finOf (V c main_v25) (V c main_v26) (V c main_v27) :=
  (dat1 V c).arrAt_eq_of_cover 3 _ (fun t _ => flushed_eq V c t) cover

end Cert.KernelIdeal.Region1

end
-- ==== Proof.RegionMsg2.lean ====
/-
  Region 2 of the kernel (a message stage): what its output array holds when the region ends.

  The grid has 20 points; point `t` reads rows `5000·t … 5000·t + 4999` of the feature array and of the normalisation
  column, the whole weight matrix, and writes the same rows of the output. Its body computes, for row `p` of the block and
  column `q`, `(∑ₖ x[p, k] · W[k, q]) · ns[p]` (the bf16 casts and the shape cast of the block to its own shape are the identity, and the matrix
  unit accumulates into zero). The 20 blocks tile the 100000 rows, so the output array is `Spec.msgOf` of the three
  input arrays as the region finds them.
-/
import proofs.«408911_j78589311582712_1_alg».proof.Proof.Gen.KernelIdeal.Frame
import proofs.«408911_j78589311582712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.Spec

/-! ## The body's arithmetic at one entry of the block -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit into a zero accumulator, at entry (p, q): the sum over the 128 contracted coordinates. -/
theorem matmul_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The normalisation column spread along the features, at entry (p, q): the column's entry of row p. -/
theorem col_at (x2 : FVec Ideal S5000x1 .f32) (p : Fin 5000) (q : Fin 128) :
    broadcastTo S5000x128 x2 broadcasts_S5000x1_S5000x128 (ix2 p q) = x2 (ix2 p (0 : Fin 1)) :=
  broadcastTo_apply x2 broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The body's stored value at entry (p, q) of the block. -/
theorem pay_at (x0 : Vec Ideal S5000x128 .f32) (x1 : Vec Ideal S128x128 .f32) (x2 : Vec Ideal S5000x1 .f32) (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  show mulf (matmul dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32))
      (broadcastTo S5000x128 (shapeCast S5000x1 x2 shapeCasts_S5000x1_S5000x1) broadcasts_S5000x1_S5000x128) (ix2 p q) = _
  rw [mulf_apply, matmul_at, shapeCast_self x0, shapeCast_self x2, col_at]
  rfl

/-! ## The blocks -/

theorem hz : (![0, 0] : Fin 2 → Nat) = fun _ => 0 := funext fun a => by fin_cases a <;> rfl

/-- The printed index maps, decided over the grid: the row windows move with the point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 20 := by
  have h := t.isLt
  have e : cfg2.N = 20 := N_2
  omega

variable (V : (c : Dev nD) → (b : Ref sig .tc) → Buf (Elt Ideal) ((c : Thread nD τ).loc b))

/-- Row `p` of point `t`'s block of the feature array is row `5000·t + p` of the array. -/
theorem feat_read (c : Dev nD) (t : Fin cfg2.N) (p : Fin 5000) (k : Fin 128) (hr : t.val * 5000 + p.val < 100000) :
    iblk2 V c 0 t (ix2 p k) = (V c main_v28 : Vec Ideal S100000x128 .f32) (ix2 ⟨t.val * 5000 + p.val, hr⟩ k) := by
  show (V c main_v28 : Vec Ideal S100000x128 .f32) (((cfg2.win 0).blk t).view.emb (ix2 p k)) = _
  refine congrArg _ (funext fun a => Fin.ext ?_)
  obtain ⟨e0, e1, -⟩ := idx_facts t
  match a with
  | ⟨0, _⟩ => show win2_0.index t (0 : Fin 2) * 5000 + 1 * p.val = t.val * 5000 + p.val; omega
  | ⟨1, _⟩ => show win2_0.index t (1 : Fin 2) * 128 + 1 * k.val = k.val; omega

/-- The weight window's one block is the whole matrix. -/
theorem weight_read (c : Dev nD) (t : Fin cfg2.N) (k : Fin 128) (q : Fin 128) :
    iblk2 V c 1 t (ix2 k q) = (V c main_arg5 : Vec Ideal S128x128 .f32) (ix2 k q) := by
  show (V c main_arg5 : Vec Ideal S128x128 .f32) (((cfg2.win 1).blk t).view.emb (ix2 k q)) = _
  refine congrArg _ (funext fun a => Fin.ext ?_)
  obtain ⟨-, -, e2, e3, -⟩ := idx_facts t
  match a with
  | ⟨0, _⟩ => show win2_1.index t (0 : Fin 2) * 128 + 1 * k.val = k.val; omega
  | ⟨1, _⟩ => show win2_1.index t (1 : Fin 2) * 128 + 1 * q.val = q.val; omega

/-- Row `p` of point `t`'s block of the normalisation column is row `5000·t + p` of the column. -/
theorem norm_read (c : Dev nD) (t : Fin cfg2.N) (p : Fin 5000) (hr : t.val * 5000 + p.val < 100000) :
    iblk2 V c 2 t (ix2 p (0 : Fin 1)) = (V c main_v29 : Vec Ideal S100000x1 .f32) (ix2 ⟨t.val * 5000 + p.val, hr⟩ (0 : Fin 1)) := by
  show (V c main_v29 : Vec Ideal S100000x1 .f32) (((cfg2.win 2).blk t).view.emb (ix2 p (0 : Fin 1))) = _
  refine congrArg _ (funext fun a => Fin.ext ?_)
  obtain ⟨-, -, -, -, e4, e5, -⟩ := idx_facts t
  match a with
  | ⟨0, _⟩ => show win2_2.index t (0 : Fin 2) * 5000 + 1 * p.val = t.val * 5000 + p.val; omega
  | ⟨1, _⟩ => show win2_2.index t (1 : Fin 2) * 1 + 1 * 0 = 0; omega

/-- WHAT POINT `t` WRITES BACK is block `t` of the message table of the arrays as the region finds them. -/
theorem flushed_eq (c : Dev nD) (t : Fin cfg2.N) :
    (dat2 V c).flushed 3 t = ((cfg2.win 3).blk t).view.read (Elt Ideal)
      (msgOf (V c main_v28) (V c main_arg5) (V c main_v29)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have ht := t_lt t
  have hr : t.val * 5000 + p.val < 100000 := by have := p.isLt; omega
  refine (pay_at (iblk2 V c 0 t) (iblk2 V c 1 t) (iblk2 V c 2 t) p q).trans ?_
  have eo : ((cfg2.win 3).blk t).view.emb (ix2 p q) = (ix2 ⟨t.val * 5000 + p.val, hr⟩ q : S100000x128.Idx) := by
    funext a; apply Fin.ext
    obtain ⟨-, -, -, -, -, -, e6, e7⟩ := idx_facts t
    match a with
    | ⟨0, _⟩ => show win2_3.index t (0 : Fin 2) * 5000 + 1 * p.val = t.val * 5000 + p.val; omega
    | ⟨1, _⟩ => show win2_3.index t (1 : Fin 2) * 128 + 1 * q.val = q.val; omega
  show _ = msgOf (V c main_v28) (V c main_arg5) (V c main_v29) (((cfg2.win 3).blk t).view.emb (ix2 p q))
  rw [eo]
  show _ = msgAt (V c main_v28) (V c main_arg5) (V c main_v29) ⟨t.val * 5000 + p.val, hr⟩ q
  unfold msgAt
  rw [norm_read V c t p hr]
  refine congrArg (· * _) (Finset.sum_congr rfl fun k _ => ?_)
  rw [feat_read V c t p k hr, weight_read V c t k q]

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v30).slice (win2_3.rect t)).set ↔ _
  rw [View.set_slice_whole, Rect.mem_set_unit]
  exact Iff.rfl

/-- Every row of the output lies in the block of the point `row / 5000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have e : cfg2.N = 20 := N_2
  let t : Fin cfg2.N := ⟨(i 0).val / 5000, by omega⟩
  refine ⟨t, flush2_3 t, ?_⟩
  rw [mem_blk]
  obtain ⟨-, -, -, -, -, -, e6, e7⟩ := idx_facts t
  have tv : t.val = (i 0).val / 5000 := rfl
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY when the region ends: the message table of the three input arrays as the region finds them. -/
theorem out_eq (c : Dev nD) :
    (dat2 V c).arrAt 3 cfg2.N = msgOf (V c main_v28) (V c main_arg5) (V c main_v29) :=
  (dat2 V c).arrAt_eq_of_cover 3 _ (fun t _ => flushed_eq V c t) cover

end Cert.KernelIdeal.Region2

end
-- ==== Proof.RegionCls6.lean ====
/-
  Region 6 of the kernel (the classifier): what its output array holds when the region ends.

  The grid has 20 points; point `t` reads rows `5000·t … 5000·t + 4999` of the hidden-feature array, the whole matrix of
  class weights and the one row of class biases, and writes the same rows of the output. Its body computes, for row `p`
  of the block and class `q`, `(∑ₖ x[p, k] · W[k, q]) + b[q]` (the bf16 casts are the identity on the extended reals,
  and the matrix unit accumulates into zero). The 20 blocks tile the 100000 rows, so the output array is `Spec.clsOf` of
  the three input arrays as the region finds them.
-/
import proofs.«408911_j78589311582712_1_alg».proof.Proof.Gen.KernelIdeal.Frame
import proofs.«408911_j78589311582712_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.Spec

/-! ## The body's arithmetic at one entry of the block -/

/-- The left operand's row coordinate is the output's row. -/
theorem lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- The left operand's column coordinate is the contracted one. -/
theorem lhs_contr (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- The right operand's row coordinate is the contracted one. -/
theorem rhs_contr (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- The right operand's column coordinate is the output's column. -/
theorem rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The matrix unit into a zero accumulator, at entry (p, q): the sum over the 128 contracted coordinates. -/
theorem matmul_at (l : FVec Ideal S5000x128 .bf16) (r : FVec Ideal S128x40 .bf16) (p : Fin 5000) (q : Fin 40) :
    matmul dot_S5000x128_S128x40_S5000x40_1_0_0_1_n_n none l r (constant (F := Ideal) S5000x40 .f32 0x00000000#32) (ix2 p q)
      = ∑ k : Fin 128, l (ix2 p k) * r (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row spread down the rows, at entry (p, q): the row's entry of column q. -/
theorem row_at (x2 : FVec Ideal S1x40 .f32) (p : Fin 5000) (q : Fin 40) :
    broadcastTo S5000x40 x2 broadcasts_S1x40_S5000x40 (ix2 p q) = x2 (ix2 (0 : Fin 1) q) :=
  broadcastTo_apply x2 broadcasts_S1x40_S5000x40 (ix2 p q) (ix2 (0 : Fin 1) q) (fun a => by
    match a with
    | ⟨0, _⟩ => show (0 : Nat) = if (1 : Nat) = 1 then 0 else p.val; rw [if_pos rfl]
    | ⟨1, _⟩ => show q.val = if (40 : Nat) = 1 then 0 else q.val; rw [if_neg (by decide)])

/-- The body's stored value at entry (p, q) of the block. -/
theorem pay_at (x0 : Vec Ideal S5000x128 .f32) (x1 : Vec Ideal S128x40 .f32) (x2 : Vec Ideal S1x40 .f32) (p : Fin 5000) (q : Fin 40) :
    k6_pay1 (F := Ideal) x0 x1 x2 (ix2 p q) = (∑ k : Fin 128, x0 (ix2 p k) * x1 (ix2 k q)) + x2 (ix2 (0 : Fin 1) q) := by
  unfold k6_pay1
  show addf (matmul dot_S5000x128_S128x40_S5000x40_1_0_0_1_n_n none (truncf .bf16 (shapeCast S5000x128 x0 shapeCasts_S5000x128_S5000x128) bitsLt_bf16_f32) (truncf .bf16 x1 bitsLt_bf16_f32) (constant (F := Ideal) S5000x40 .f32 0x00000000#32))
      (broadcastTo S5000x40 (shapeCast S1x40 x2 shapeCasts_S1x40_S1x40) broadcasts_S1x40_S5000x40) (ix2 p q) = _
  rw [addf_apply, matmul_at, shapeCast_self, shapeCast_self, row_at]
  rfl

/-! ## The blocks -/

theorem hz : (![0, 0] : Fin 2 → Nat) = fun _ => 0 := funext fun a => by fin_cases a <;> rfl

/-- The printed index maps, decided over the grid: the row windows move with the point, the weight and bias windows stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem t_lt (t : Fin cfg6.N) : t.val < 20 := by
  have h := t.isLt
  have e : cfg6.N = 20 := N_6
  omega

variable (V : (c : Dev nD) → (b : Ref sig .tc) → Buf (Elt Ideal) ((c : Thread nD τ).loc b))

/-- Row `p` of point `t`'s block of the hidden-feature array is row `5000·t + p` of the array. -/
theorem feat_read (c : Dev nD) (t : Fin cfg6.N) (p : Fin 5000) (k : Fin 128) (hr : t.val * 5000 + p.val < 100000) :
    iblk6 V c 0 t (ix2 p k) = (V c main_v46 : Vec Ideal S100000x128 .f32) (ix2 ⟨t.val * 5000 + p.val, hr⟩ k) := by
  show (V c main_v46 : Vec Ideal S100000x128 .f32) (((cfg6.win 0).blk t).view.emb (ix2 p k)) = _
  refine congrArg _ (funext fun a => Fin.ext ?_)
  obtain ⟨e0, e1, -⟩ := idx_facts t
  match a with
  | ⟨0, _⟩ => show win6_0.index t (0 : Fin 2) * 5000 + 1 * p.val = t.val * 5000 + p.val; omega
  | ⟨1, _⟩ => show win6_0.index t (1 : Fin 2) * 128 + 1 * k.val = k.val; omega

/-- The weight window's one block is the whole matrix of class weights. -/
theorem weight_read (c : Dev nD) (t : Fin cfg6.N) (k : Fin 128) (q : Fin 40) :
    iblk6 V c 1 t (ix2 k q) = (V c main_arg9 : Vec Ideal S128x40 .f32) (ix2 k q) := by
  show (V c main_arg9 : Vec Ideal S128x40 .f32) (((cfg6.win 1).blk t).view.emb (ix2 k q)) = _
  refine congrArg _ (funext fun a => Fin.ext ?_)
  obtain ⟨-, -, e2, e3, -⟩ := idx_facts t
  match a with
  | ⟨0, _⟩ => show win6_1.index t (0 : Fin 2) * 128 + 1 * k.val = k.val; omega
  | ⟨1, _⟩ => show win6_1.index t (1 : Fin 2) * 40 + 1 * q.val = q.val; omega

/-- The bias window's one block is the whole row of class biases. -/
theorem bias_read (c : Dev nD) (t : Fin cfg6.N) (q : Fin 40) :
    iblk6 V c 2 t (ix2 (0 : Fin 1) q) = (V c main_v47 : Vec Ideal S1x40 .f32) (ix2 (0 : Fin 1) q) := by
  show (V c main_v47 : Vec Ideal S1x40 .f32) (((cfg6.win 2).blk t).view.emb (ix2 (0 : Fin 1) q)) = _
  refine congrArg _ (funext fun a => Fin.ext ?_)
  obtain ⟨-, -, -, -, e4, e5, -⟩ := idx_facts t
  match a with
  | ⟨0, _⟩ => show win6_2.index t (0 : Fin 2) * 1 + 1 * 0 = 0; omega
  | ⟨1, _⟩ => show win6_2.index t (1 : Fin 2) * 40 + 1 * q.val = q.val; omega

/-- WHAT POINT `t` WRITES BACK is block `t` of the logits of the arrays as the region finds them. -/
theorem flushed_eq (c : Dev nD) (t : Fin cfg6.N) :
    (dat6 V c).flushed 3 t = ((cfg6.win 3).blk t).view.read (Elt Ideal)
      (clsOf (V c main_v46) (V c main_arg9) (V c main_v47)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  have ht := t_lt t
  have hr : t.val * 5000 + p.val < 100000 := by have := p.isLt; omega
  refine (pay_at (iblk6 V c 0 t) (iblk6 V c 1 t) (iblk6 V c 2 t) p q).trans ?_
  have eo : ((cfg6.win 3).blk t).view.emb (ix2 p q) = (ix2 ⟨t.val * 5000 + p.val, hr⟩ q : S100000x40.Idx) := by
    funext a; apply Fin.ext
    obtain ⟨-, -, -, -, -, -, e6, e7⟩ := idx_facts t
    match a with
    | ⟨0, _⟩ => show win6_3.index t (0 : Fin 2) * 5000 + 1 * p.val = t.val * 5000 + p.val; omega
    | ⟨1, _⟩ => show win6_3.index t (1 : Fin 2) * 40 + 1 * q.val = q.val; omega
  show _ = clsOf (V c main_v46) (V c main_arg9) (V c main_v47) (((cfg6.win 3).blk t).view.emb (ix2 p q))
  rw [eo]
  show _ = clsAt (V c main_v46) (V c main_arg9) (V c main_v47) ⟨t.val * 5000 + p.val, hr⟩ q
  unfold clsAt
  rw [bias_read V c t q]
  refine congrArg (· + _) (Finset.sum_congr rfl fun k _ => ?_)
  rw [feat_read V c t p k hr, weight_read V c t k q]

/-- An index of the output array is in point `t`'s block iff each coordinate is in the block's range on its axis. -/
theorem mem_blk (t : Fin cfg6.N) (i : S100000x40.Idx) :
    i ∈ ((cfg6.win 3).blk t).view.set ↔ ∀ a : Fin 2, win6_3.index t a * S5000x40.size a ≤ (i a).val ∧ (i a).val < win6_3.index t a * S5000x40.size a + S5000x40.size a := by
  show i ∈ ((View.whole main_v48).slice (win6_3.rect t)).set ↔ _
  rw [View.set_slice_whole, Rect.mem_set_unit]
  exact Iff.rfl

/-- Every row of the output lies in the block of the point `row / 5000`. -/
theorem cover (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  have e : cfg6.N = 20 := N_6
  let t : Fin cfg6.N := ⟨(i 0).val / 5000, by omega⟩
  refine ⟨t, flush6_3 t, ?_⟩
  rw [mem_blk]
  obtain ⟨-, -, -, -, -, -, e6, e7⟩ := idx_facts t
  have tv : t.val = (i 0).val / 5000 := rfl
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 40 ≤ (i 1).val ∧ (i 1).val < win6_3.index t (1 : Fin 2) * 40 + 40; omega

/-- THE OUTPUT ARRAY when the region ends: the logits of the three input arrays as the region finds them. -/
theorem out_eq (c : Dev nD) :
    (dat6 V c).arrAt 3 cfg6.N = clsOf (V c main_v46) (V c main_arg9) (V c main_v47) :=
  (dat6 V c).arrAt_eq_of_cover 3 _ (fun t _ => flushed_eq V c t) cover

end Cert.KernelIdeal.Region6

end
-- ==== Proof.KernelChain.lean ====
/-
  The kernel's result buffer at the end of the run, as the function `Terms.outOf` of the argument arrays.

  The run's buffer contents are known at every boundary between a stretch of host operations and a kernel region
  (the generated frame's `W0 … W21`). Walking forward: the first stretches compute the two degree normalisations; each
  message region leaves `Spec.msgOf` of its three input arrays (RegionMsg*.lean), the host stretch after it (KernelHost.lean) gathers the
  rows at the edges' sources and adds them into the edges' destinations (`Terms.aggOf`), each finishing region leaves
  `Spec.finOf` (RegionFin*.lean), the last region `Spec.clsOf` (RegionCls6.lean). A buffer that no later stretch writes and
  that is no array of a later region keeps its contents (KernelKeep.lean); that is how the arguments, the two
  normalisations and each region's output reach the place where they are read.
-/
import proofs.«408911_j78589311582712_1_alg».proof.Proof.Gen.KernelIdeal.Frame
import proofs.«408911_j78589311582712_1_alg».proof.Proof.KernelTerms
import proofs.«408911_j78589311582712_1_alg».proof.Proof.KernelKeep
import proofs.«408911_j78589311582712_1_alg».proof.Proof.KernelHost
import proofs.«408911_j78589311582712_1_alg».proof.Proof.RegionMsg0
import proofs.«408911_j78589311582712_1_alg».proof.Proof.RegionFin1
import proofs.«408911_j78589311582712_1_alg».proof.Proof.RegionMsg2
import proofs.«408911_j78589311582712_1_alg».proof.Proof.RegionFin3
import proofs.«408911_j78589311582712_1_alg».proof.Proof.RegionMsg4
import proofs.«408911_j78589311582712_1_alg».proof.Proof.RegionFin5
import proofs.«408911_j78589311582712_1_alg».proof.Proof.RegionCls6
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Proof.Spec Cert.KernelIdeal.Terms Cert.KernelIdeal.Take Cert.KernelIdeal.Keep

variable (m : (ℓ : Loc nD τ sig) → Buf (Elt Ideal) ℓ) (ρ : Dev nD → PrngReg)

/-- The source normalisation, of the launch's edge list. -/
abbrev ns (c : Dev nD) : FVec Ideal S100000 .f32 := normOf (m ((c : Thread nD τ).loc main_arg1))
/-- The destination normalisation. -/
abbrev nd (c : Dev nD) : FVec Ideal S100000 .f32 := normOf (m ((c : Thread nD τ).loc main_arg2))
/-- The features after the first, second and third layer. -/
abbrev h1 (c : Dev nD) : FVec Ideal S100000x128 .f32 := layerOf (m ((c : Thread nD τ).loc main_arg0)) (m ((c : Thread nD τ).loc main_arg3)) (m ((c : Thread nD τ).loc main_arg4)) (m ((c : Thread nD τ).loc main_arg1)) (m ((c : Thread nD τ).loc main_arg2))
abbrev h2 (c : Dev nD) : FVec Ideal S100000x128 .f32 := layerOf (h1 m c) (m ((c : Thread nD τ).loc main_arg5)) (m ((c : Thread nD τ).loc main_arg6)) (m ((c : Thread nD τ).loc main_arg1)) (m ((c : Thread nD τ).loc main_arg2))
abbrev h3 (c : Dev nD) : FVec Ideal S100000x128 .f32 := layerOf (h2 m c) (m ((c : Thread nD τ).loc main_arg7)) (m ((c : Thread nD τ).loc main_arg8)) (m ((c : Thread nD τ).loc main_arg1)) (m ((c : Thread nD τ).loc main_arg2))

/-! ## Layer 1 -/

theorem x0_msg (c : Dev nD) :
    W6 m ρ c (Proc.devRef .tc main_v21) = msgOf (m ((c : Thread nD τ).loc main_arg0)) (m ((c : Thread nD τ).loc main_arg3)) (colOf (ns m c)) :=
  (W6_arr m ρ c 3).trans ((Region0.out_eq (V5 m ρ) c).trans (by
    show msgOf (W5 m ρ c (Proc.devRef .tc main_arg0)) (W5 m ρ c (Proc.devRef .tc main_arg3)) (W5 m ρ c (Proc.devRef .tc main_v20)) = _
    rw [w5_arg0, w5_arg3, w5_v20]))

theorem e1_agg (c : Dev nD) :
    W8 m ρ c (Proc.devRef .tc main_v25) = aggOf (msgOf (m ((c : Thread nD τ).loc main_arg0)) (m ((c : Thread nD τ).loc main_arg3)) (colOf (ns m c))) (m ((c : Thread nD τ).loc main_arg1)) (m ((c : Thread nD τ).loc main_arg2)) := by
  rw [HostEval.h1_agg, x0_msg, keep6 m ρ c main_arg1 (by decide), keep6 m ρ c main_arg2 (by decide), w5_arg1, w5_arg2]

theorem e1_nd (c : Dev nD) : W8 m ρ c (Proc.devRef .tc main_v26) = colOf (nd m c) := by
  rw [HostEval.h1_nd, keep6 m ρ c main_v19 (by decide), w5_v19]

theorem e1_bias (c : Dev nD) : W8 m ρ c (Proc.devRef .tc main_v27) = rowOf (F := Ideal) (m ((c : Thread nD τ).loc main_arg4)) := by
  rw [HostEval.h1_bias, keep6 m ρ c main_arg4 (by decide), w5_arg4]

theorem x1_h (c : Dev nD) : W9 m ρ c (Proc.devRef .tc main_v28) = h1 m c :=
  (W9_arr m ρ c 3).trans ((Region1.out_eq (V8 m ρ) c).trans (by
    show finOf (W8 m ρ c (Proc.devRef .tc main_v25)) (W8 m ρ c (Proc.devRef .tc main_v26)) (W8 m ρ c (Proc.devRef .tc main_v27)) = _
    rw [e1_agg, e1_nd, e1_bias]
    rfl))

/-! ## Layer 2 -/

theorem e2_h (c : Dev nD) : W10 m ρ c (Proc.devRef .tc main_v28) = h1 m c := by
  rw [HostEval.h2_h, x1_h]

theorem e2_ns (c : Dev nD) : W10 m ρ c (Proc.devRef .tc main_v29) = colOf (ns m c) := by
  rw [HostEval.h2_ns, keep9 m ρ c main_v9 (by decide), w5_v9]

theorem e2_w (c : Dev nD) : W10 m ρ c (Proc.devRef .tc main_arg5) = (m ((c : Thread nD τ).loc main_arg5)) := by
  rw [keep10 m ρ c main_arg5 (by decide), w5_arg5]

theorem x2_msg (c : Dev nD) :
    W11 m ρ c (Proc.devRef .tc main_v30) = msgOf (h1 m c) (m ((c : Thread nD τ).loc main_arg5)) (colOf (ns m c)) :=
  (W11_arr m ρ c 3).trans ((Region2.out_eq (V10 m ρ) c).trans (by
    show msgOf (W10 m ρ c (Proc.devRef .tc main_v28)) (W10 m ρ c (Proc.devRef .tc main_arg5)) (W10 m ρ c (Proc.devRef .tc main_v29)) = _
    rw [e2_h, e2_w, e2_ns]))

theorem e3_agg (c : Dev nD) :
    W13 m ρ c (Proc.devRef .tc main_v34) = aggOf (msgOf (h1 m c) (m ((c : Thread nD τ).loc main_arg5)) (colOf (ns m c))) (m ((c : Thread nD τ).loc main_arg1)) (m ((c : Thread nD τ).loc main_arg2)) := by
  rw [HostEval.h3_agg, x2_msg, keep11 m ρ c main_arg1 (by decide), keep11 m ρ c main_arg2 (by decide), w5_arg1, w5_arg2]

theorem e3_nd (c : Dev nD) : W13 m ρ c (Proc.devRef .tc main_v35) = colOf (nd m c) := by
  rw [HostEval.h3_nd, keep11 m ρ c main_v19 (by decide), w5_v19]

theorem e3_bias (c : Dev nD) : W13 m ρ c (Proc.devRef .tc main_v36) = rowOf (F := Ideal) (m ((c : Thread nD τ).loc main_arg6)) := by
  rw [HostEval.h3_bias, keep11 m ρ c main_arg6 (by decide), w5_arg6]

theorem x3_h (c : Dev nD) : W14 m ρ c (Proc.devRef .tc main_v37) = h2 m c :=
  (W14_arr m ρ c 3).trans ((Region3.out_eq (V13 m ρ) c).trans (by
    show finOf (W13 m ρ c (Proc.devRef .tc main_v34)) (W13 m ρ c (Proc.devRef .tc main_v35)) (W13 m ρ c (Proc.devRef .tc main_v36)) = _
    rw [e3_agg, e3_nd, e3_bias]
    rfl))

/-! ## Layer 3 -/

theorem e4_h (c : Dev nD) : W15 m ρ c (Proc.devRef .tc main_v37) = h2 m c := by
  rw [HostEval.h4_h, x3_h]

theorem e4_ns (c : Dev nD) : W15 m ρ c (Proc.devRef .tc main_v38) = colOf (ns m c) := by
  rw [HostEval.h4_ns, keep14 m ρ c main_v9 (by decide), w5_v9]

theorem e4_w (c : Dev nD) : W15 m ρ c (Proc.devRef .tc main_arg7) = (m ((c : Thread nD τ).loc main_arg7)) := by
  rw [keep15 m ρ c main_arg7 (by decide), w5_arg7]

theorem x4_msg (c : Dev nD) :
    W16 m ρ c (Proc.devRef .tc main_v39) = msgOf (h2 m c) (m ((c : Thread nD τ).loc main_arg7)) (colOf (ns m c)) :=
  (W16_arr m ρ c 3).trans ((Region4.out_eq (V15 m ρ) c).trans (by
    show msgOf (W15 m ρ c (Proc.devRef .tc main_v37)) (W15 m ρ c (Proc.devRef .tc main_arg7)) (W15 m ρ c (Proc.devRef .tc main_v38)) = _
    rw [e4_h, e4_w, e4_ns]))

theorem e5_agg (c : Dev nD) :
    W18 m ρ c (Proc.devRef .tc main_v43) = aggOf (msgOf (h2 m c) (m ((c : Thread nD τ).loc main_arg7)) (colOf (ns m c))) (m ((c : Thread nD τ).loc main_arg1)) (m ((c : Thread nD τ).loc main_arg2)) := by
  rw [HostEval.h5_agg, x4_msg, keep16 m ρ c main_arg1 (by decide), keep16 m ρ c main_arg2 (by decide), w5_arg1, w5_arg2]

theorem e5_nd (c : Dev nD) : W18 m ρ c (Proc.devRef .tc main_v44) = colOf (nd m c) := by
  rw [HostEval.h5_nd, keep16 m ρ c main_v19 (by decide), w5_v19]

theorem e5_bias (c : Dev nD) : W18 m ρ c (Proc.devRef .tc main_v45) = rowOf (F := Ideal) (m ((c : Thread nD τ).loc main_arg8)) := by
  rw [HostEval.h5_bias, keep16 m ρ c main_arg8 (by decide), w5_arg8]

theorem x5_h (c : Dev nD) : W19 m ρ c (Proc.devRef .tc main_v46) = h3 m c :=
  (W19_arr m ρ c 3).trans ((Region5.out_eq (V18 m ρ) c).trans (by
    show finOf (W18 m ρ c (Proc.devRef .tc main_v43)) (W18 m ρ c (Proc.devRef .tc main_v44)) (W18 m ρ c (Proc.devRef .tc main_v45)) = _
    rw [e5_agg, e5_nd, e5_bias]
    rfl))

/-! ## The classifier -/

theorem e6_h (c : Dev nD) : W20 m ρ c (Proc.devRef .tc main_v46) = h3 m c := by
  rw [HostEval.h6_h, x5_h]

theorem e6_bias (c : Dev nD) : W20 m ρ c (Proc.devRef .tc main_v47) = rowOfC (F := Ideal) (m ((c : Thread nD τ).loc main_arg10)) := by
  rw [HostEval.h6_bias, keep19 m ρ c main_arg10 (by decide), w5_arg10]

theorem e6_w (c : Dev nD) : W20 m ρ c (Proc.devRef .tc main_arg9) = (m ((c : Thread nD τ).loc main_arg9)) := by
  rw [keep20 m ρ c main_arg9 (by decide), w5_arg9]

/-- THE RESULT BUFFER when the run ends. -/
theorem result (c : Dev nD) :
    W21 m ρ c (Proc.devRef .tc main_v48)
      = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W21_arr m ρ c 3).trans ((Region6.out_eq (V20 m ρ) c).trans (by
    show clsOf (W20 m ρ c (Proc.devRef .tc main_v46)) (W20 m ρ c (Proc.devRef .tc main_arg9)) (W20 m ρ c (Proc.devRef .tc main_v47)) = _
    rw [e6_h, e6_w, e6_bias]
    rfl))

end Cert.KernelIdeal.Chain

end
-- ==== Proof.RefLaws.lean ====
/-
  The reference's dense stages, written with whole-array operations, are the functions of Spec.lean.

  At the ideal instance a host `dot_general` that contracts axis 1 of `h` with axis 0 of `W` is, entry by entry, the sum
  over the 128 contracted coordinates of the products; a `broadcast_in_dim` of a column (shape [100000, 1]) or of a row
  (shape [1, n]) to the full rectangle reads the column at the entry's row and the row at the entry's column; the
  remaining operations are entrywise. So entry (r, c) of each stage is the formula Spec.lean gives it.
-/
import proofs.«408911_j78589311582712_1_alg».proof.Proof.Gen.ReferenceIdeal
import proofs.«408911_j78589311582712_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Laws

open Cert.ReferenceIdeal Cert.ReferenceIdeal.Gen Idealize.ShloMosaic Idealize.ShloMosaic.ValueIdx Cert.Proof.Spec

/-! ## The two matrix products at an entry

Each record contracts axis 1 of the left operand with axis 0 of the right one and has no batch axis, so at the output
entry (r, c) and contraction coordinate k the operands are read at (r, k) and (k, c). -/

private theorem lhsA_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
private theorem lhsA_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
private theorem rhsA_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
private theorem rhsA_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- Entry (r, c) of the 128-feature product is the sum over k of h[r, k] · W[k, c]. -/
private theorem dotA_apply (h : FVec Ideal S100000x128 .f32) (W : FVec Ideal S128x128 .f32) (r : Fin 100000) (c : Fin 128) :
    Host.dotGeneral dot_S100000x128_S128x128_S100000x128_1_0_0_1_n_n none h W (ix2 r c)
      = ∑ k : Fin 128, h (ix2 r k) * W (ix2 k c) := by
  simp only [Host.dotGeneral]
  rw [Ideal.dotGeneral_apply,
    ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c)
      ((ValueIdx.contrEquiv1 dot_S100000x128_S128x128_S100000x128_1_0_0_1_n_n 128 rfl rfl).symm k) = ix2 r k :=
    funext fun a => Fin.ext (by
      match a with
      | ⟨0, _⟩ => exact lhsA_0 _ _
      | ⟨1, _⟩ => exact (lhsA_1 _ _).trans hk)
  have er : dot_S100000x128_S128x128_S100000x128_1_0_0_1_n_n.rhsIdx (ix2 r c)
      ((ValueIdx.contrEquiv1 dot_S100000x128_S128x128_S100000x128_1_0_0_1_n_n 128 rfl rfl).symm k) = ix2 k c :=
    funext fun a => Fin.ext (by
      match a with
      | ⟨0, _⟩ => exact (rhsA_0 _ _).trans hk
      | ⟨1, _⟩ => exact rhsA_1 _ _)
  rw [el, er]

private theorem lhsB_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl
private theorem lhsB_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
private theorem rhsB_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
private theorem rhsB_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- Entry (r, c) of the 40-class product is the sum over k of h[r, k] · Wc[k, c]. -/
private theorem dotB_apply (h : FVec Ideal S100000x128 .f32) (Wc : FVec Ideal S128x40 .f32) (r : Fin 100000) (c : Fin 40) :
    Host.dotGeneral dot_S100000x128_S128x40_S100000x40_1_0_0_1_n_n none h Wc (ix2 r c)
      = ∑ k : Fin 128, h (ix2 r k) * Wc (ix2 k c) := by
  simp only [Host.dotGeneral]
  rw [Ideal.dotGeneral_apply,
    ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 r c)
      ((ValueIdx.contrEquiv1 dot_S100000x128_S128x40_S100000x40_1_0_0_1_n_n 128 rfl rfl).symm k) = ix2 r k :=
    funext fun a => Fin.ext (by
      match a with
      | ⟨0, _⟩ => exact lhsB_0 _ _
      | ⟨1, _⟩ => exact (lhsB_1 _ _).trans hk)
  have er : dot_S100000x128_S128x40_S100000x40_1_0_0_1_n_n.rhsIdx (ix2 r c)
      ((ValueIdx.contrEquiv1 dot_S100000x128_S128x40_S100000x40_1_0_0_1_n_n 128 rfl rfl).symm k) = ix2 k c :=
    funext fun a => Fin.ext (by
      match a with
      | ⟨0, _⟩ => exact (rhsB_0 _ _).trans hk
      | ⟨1, _⟩ => exact rhsB_1 _ _)
  rw [el, er]

/-! ## The broadcasts at an entry

A column of shape [100000, 1] broadcast along the features is read at the entry's row (its second axis has extent one, so
its coordinate there is 0); a row of shape [1, n] broadcast along the nodes is read at the entry's column; a scalar is read
at its one index. -/

private theorem bcol_apply (x : FVec Ideal S100000x1 .f32) (r : Fin 100000) (c : Fin 128) :
    broadcastInDim S100000x128 ![0, 1] bcast_S100000x1_S100000x128_0_1 x (ix2 r c) = x (ix2 r (0 : Fin 1)) :=
  broadcastInDim_apply _ bcast_S100000x1_S100000x128_0_1 x (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

private theorem brow128_apply (x : FVec Ideal S1x128 .f32) (r : Fin 100000) (c : Fin 128) :
    broadcastInDim S100000x128 ![0, 1] bcast_S1x128_S100000x128_0_1 x (ix2 r c) = x (ix2 (0 : Fin 1) c) :=
  broadcastInDim_apply _ bcast_S1x128_S100000x128_0_1 x (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])

private theorem brow40_apply (x : FVec Ideal S1x40 .f32) (r : Fin 100000) (c : Fin 40) :
    broadcastInDim S100000x40 ![0, 1] bcast_S1x40_S100000x40_0_1 x (ix2 r c) = x (ix2 (0 : Fin 1) c) :=
  broadcastInDim_apply _ bcast_S1x40_S100000x40_0_1 x (ix2 r c) (ix2 (0 : Fin 1) c) (fun a => match a with
    | ⟨0, _⟩ => by show 0 = if (1 : Nat) = 1 then 0 else r.val; rw [if_pos rfl]
    | ⟨1, _⟩ => by show c.val = if (40 : Nat) = 1 then 0 else c.val; rw [if_neg (by decide)])

private theorem bscalar_apply (x : FVec Ideal S_ .f32) (r : Fin 100000) (c : Fin 128) :
    broadcastInDim S100000x128 ![] bcast_S_S100000x128 x (ix2 r c) = x ix0 :=
  broadcastInDim_apply _ bcast_S_S100000x128 x (ix2 r c) ix0 (fun a => a.elim0)

/-- The message stage: the matrix product scaled by the source normalisation broadcast along the features. -/
theorem msg_eq (h : FVec Ideal S100000x128 .f32) (W : FVec Ideal S128x128 .f32) (ns : FVec Ideal S100000x1 .f32) :
    mulf (Host.dotGeneral dot_S100000x128_S128x128_S100000x128_1_0_0_1_n_n none h W)
      (broadcastInDim S100000x128 ![0, 1] bcast_S100000x1_S100000x128_0_1 ns)
    = msgOf h W ns := by
  funext i
  obtain ⟨r, c, rfl⟩ : ∃ (r : Fin 100000) (c : Fin 128), i = ix2 r c := ⟨i 0, i 1, eq_ix2 i⟩
  show _ = msgAt h W ns r c
  unfold msgAt
  rw [mulf_apply, dotA_apply, bcol_apply]

/-- The finishing stage: scale by the destination normalisation, add the bias row, clip at zero. -/
theorem fin_eq (agg : FVec Ideal S100000x128 .f32) (nd : FVec Ideal S100000x1 .f32) (b : FVec Ideal S1x128 .f32) :
    maximumf
      (addf (mulf agg (broadcastInDim S100000x128 ![0, 1] bcast_S100000x1_S100000x128_0_1 nd))
        (broadcastInDim S100000x128 ![0, 1] bcast_S1x128_S100000x128_0_1 b))
      (broadcastInDim S100000x128 ![] bcast_S_S100000x128 (constant S_ .f32 0x00000000#32))
    = finOf agg nd b := by
  funext i
  obtain ⟨r, c, rfl⟩ : ∃ (r : Fin 100000) (c : Fin 128), i = ix2 r c := ⟨i 0, i 1, eq_ix2 i⟩
  show _ = finAt agg nd b r c
  unfold finAt
  rw [maximumf_apply, addf_apply, mulf_apply, bcol_apply, brow128_apply, bscalar_apply, constant_apply]

/-- The classifier: the matrix product plus the class bias row. -/
theorem cls_eq (h : FVec Ideal S100000x128 .f32) (Wc : FVec Ideal S128x40 .f32) (bc : FVec Ideal S1x40 .f32) :
    addf (Host.dotGeneral dot_S100000x128_S128x40_S100000x40_1_0_0_1_n_n none h Wc)
      (broadcastInDim S100000x40 ![0, 1] bcast_S1x40_S100000x40_0_1 bc)
    = clsOf h Wc bc := by
  funext i
  obtain ⟨r, c, rfl⟩ : ∃ (r : Fin 100000) (c : Fin 40), i = ix2 r c := ⟨i 0, i 1, eq_ix2 i⟩
  show _ = clsAt h Wc bc r c
  unfold clsAt
  rw [addf_apply, dotB_apply, brow40_apply]

end Cert.ReferenceIdeal.Laws

end
-- ==== Proof.RefCompose.lean ====
/-
  The reference's result as the same composition of stages as the kernel's, and the two compositions compared.

  The reference's run ends with its result at one long term of whole-array operations of the arguments. Its three dense
  stage shapes are the functions of Spec.lean (RefLaws.lean), so the term IS: three times [message table, rows gathered
  at the adjusted source indices, summed into the destinations, finishing stage], then the classifier — `outOf` below.
  The kernel's composition (KernelTerms.lean) differs in one place only: its gather blanks the rows whose adjusted index
  is out of range, which under the index-range precondition never happens (TakeMask.lean). Everything else is the same
  operation with the same dimension numbers on both sides.
-/
import proofs.«408911_j78589311582712_1_alg».proof.Proof.RefRun
import proofs.«408911_j78589311582712_1_alg».proof.Proof.RefLaws
import proofs.«408911_j78589311582712_1_alg».proof.Proof.KernelTerms
import proofs.«408911_j78589311582712_1_alg».proof.Proof.TakeMask

set_option maxRecDepth 16384

noncomputable section

namespace Cert.ReferenceIdeal.Compose

open Cert.ReferenceIdeal Cert.ReferenceIdeal.Gen Idealize.ShloMosaic Idealize.ShloMosaic.TcCoe Idealize.SL.Sem Cert.Proof.Spec

/-- The number of edges at each node. -/
def degOf (idx : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree normalisation. -/
def normOf (idx : IVec S1600000 32) : FVec Ideal S100000 .f32 :=
  select (cmpf (F := Ideal) .ogt (degOf idx) (broadcastInDim S100000 ![] bcast_S_S100000 (constant S_ .f32 0x00000000#32)))
    (Host.rsqrt (maximumf (degOf idx) (broadcastInDim S100000 ![] bcast_S_S100000 (constant S_ .f32 0x3F800000#32))))
    (broadcastInDim S100000 ![] bcast_S_S100000 (id (constant S_ .f32 0x00000000#32)))

def colOf (v : FVec Ideal S100000 .f32) : FVec Ideal S100000x1 .f32 :=
  broadcastInDim S100000x1 ![0] bcast_S100000_S100000x1_0 v

def rowOf (b : FVec Ideal S128 .f32) : FVec Ideal S1x128 .f32 :=
  broadcastInDim S1x128 ![1] bcast_S128_S1x128_1 b

def rowOfC (b : FVec Ideal S40 .f32) : FVec Ideal S1x40 .f32 :=
  broadcastInDim S1x40 ![1] bcast_S40_S1x40_1 b

/-- The source indices after the adjustment of negative ones, as the column the gather reads. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The messages gathered at the edges' sources and summed into the edges' destinations. -/
def aggOf (msg : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 msg (wrapCol src))

def layerOf (h : FVec Ideal S100000x128 .f32) (W : FVec Ideal S128x128 .f32) (b : FVec Ideal S128 .f32)
    (src dst : IVec S1600000 32) : FVec Ideal S100000x128 .f32 :=
  finOf (aggOf (msgOf h W (colOf (normOf src))) src dst) (colOf (normOf dst)) (rowOf b)

/-- The reference's result: three layers and the classifier. -/
def outOf (x : FVec Ideal S100000x128 .f32) (src dst : IVec S1600000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (Wc : FVec Ideal S128x40 .f32) (bc : FVec Ideal S40 .f32) :
    FVec Ideal S100000x40 .f32 :=
  clsOf (layerOf (layerOf (layerOf x W1 b1 src dst) W2 b2 src dst) W3 b3 src dst) Wc (rowOfC bc)

/-- The run's result term is that composition of the launch's arguments. -/
theorem res_eq (m : (ℓ : Loc nD τ sig) → Buf (Elt Ideal) ℓ) (c : Dev nD) :
    Cert.ReferenceIdeal.RunCopy.res_main_v126 (F := Ideal) m c
      = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.RunCopy.res_main_v126
  rw [Cert.ReferenceIdeal.Laws.cls_eq, Cert.ReferenceIdeal.Laws.fin_eq, Cert.ReferenceIdeal.Laws.msg_eq, Cert.ReferenceIdeal.Laws.fin_eq, Cert.ReferenceIdeal.Laws.msg_eq, Cert.ReferenceIdeal.Laws.fin_eq, Cert.ReferenceIdeal.Laws.msg_eq]
  unfold outOf layerOf aggOf colOf rowOf rowOfC wrapCol normOf degOf
  rfl

/-! ## Against the kernel's composition -/

theorem normOf_eq (idx : IVec S1600000 32) : Cert.KernelIdeal.Terms.normOf idx = normOf idx := rfl
theorem colOf_eq (v : FVec Ideal S100000 .f32) : Cert.KernelIdeal.Terms.colOf v = colOf v := rfl
theorem rowOf_eq (b : FVec Ideal S128 .f32) : Cert.KernelIdeal.Terms.rowOf b = rowOf b := rfl
theorem rowOfC_eq (b : FVec Ideal S40 .f32) : Cert.KernelIdeal.Terms.rowOfC b = rowOfC b := rfl

/-- With every source index in range the kernel's gather-and-sum is the reference's. -/
theorem aggOf_eq (msg : FVec Ideal S100000x128 .f32) (src dst : IVec S1600000 32) (h : Cert.KernelIdeal.Take.InRange src) :
    Cert.KernelIdeal.Terms.aggOf msg src dst = aggOf msg src dst := by
  unfold Cert.KernelIdeal.Terms.aggOf
  rw [Cert.KernelIdeal.Take.takeFill_eq_gather msg src h]
  rfl

theorem layerOf_eq (x : FVec Ideal S100000x128 .f32) (W : FVec Ideal S128x128 .f32) (b : FVec Ideal S128 .f32)
    (src dst : IVec S1600000 32) (h : Cert.KernelIdeal.Take.InRange src) :
    Cert.KernelIdeal.Terms.layerOf x W b src dst = layerOf x W b src dst := by
  unfold Cert.KernelIdeal.Terms.layerOf layerOf
  rw [aggOf_eq _ src dst h, normOf_eq, normOf_eq, colOf_eq, colOf_eq, rowOf_eq]

/-- THE TWO RESULTS AGREE on arguments whose source indices are in range. -/
theorem outOf_eq (x : FVec Ideal S100000x128 .f32) (src dst : IVec S1600000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (Wc : FVec Ideal S128x40 .f32) (bc : FVec Ideal S40 .f32)
    (h : Cert.KernelIdeal.Take.InRange src) :
    outOf x src dst W1 b1 W2 b2 W3 b3 Wc bc = Cert.KernelIdeal.Terms.outOf x src dst W1 b1 W2 b2 W3 b3 Wc bc := by
  unfold Cert.KernelIdeal.Terms.outOf outOf
  rw [layerOf_eq x W1 b1 src dst h, layerOf_eq _ W2 b2 src dst h, layerOf_eq _ W3 b3 src dst h, rowOfC_eq]

end Cert.ReferenceIdeal.Compose

end
-- ==== Proof.lean ====
/-
  A three-layer graph convolution with a linear classifier, on 100000 nodes with 128 features and 1600000 edges:
  the Pallas kernel against its jnp reference, over the extended reals.

  Both programs compute, per layer, `relu (Â · (h W) + b)` with `Â = D_in^{-1/2} Aᵀ D_out^{-1/2}` realised as: the message table
  `(h W)[r, :] · norm_src[r]`, its rows gathered at the edges' sources and summed into the edges' destinations, the sum scaled
  by `norm_dst`, plus the bias, clipped at zero; then `h Wc + bc`. The kernel runs the three dense stage shapes (message,
  finish, classify) as seven pipelined regions over blocks of 5000 rows and leaves the gather and the scatter-add to the
  host; the reference does everything on the host. Read over the extended reals the two are the SAME composition of the
  same operations: a block-wise matrix product into a zero accumulator is the whole product restricted to the block, the
  bf16 casts are the identity, and the 20 blocks tile the rows (RegionMsg*/RegionFin*/RegionCls6, KernelChain for the
  kernel; RefLaws, RefCompose for the reference). No algebraic law beyond re-indexing a finite sum is used, so finiteness
  of the inputs is not needed for the values.

  The one difference is the gather's treatment of an index outside the table: the kernel's `jnp.take` writes NaN rows there,
  the reference's `msg[src]` clamps the index. The claim is therefore stated under the evident domain of the reference's
  indexing, `-100000 ≤ src[e] < 100000` (negative indices count from the end, as both programs adjust them): inside it
  the kernel's range test always passes (IndexWrap, TakeMask) and the two gathers coincide.

  The frames of the two kernel programs are the generated ones; the reference's frame and value come from its run
  (RefRun); the kernel's value from the generated launch called with the result buffer named (KernelRun).
-/
import proofs.«408911_j78589311582712_1_alg».proof.Defs
import proofs.«408911_j78589311582712_1_alg».proof.Proof.Gen.Kernel
import proofs.«408911_j78589311582712_1_alg».proof.Proof.Gen.Kernel.Skeleton
import proofs.«408911_j78589311582712_1_alg».proof.Proof.Gen.Kernel.Launch
import proofs.«408911_j78589311582712_1_alg».proof.Proof.Gen.Kernel.Points
import proofs.«408911_j78589311582712_1_alg».proof.Proof.Gen.Kernel.Frame
import proofs.«408911_j78589311582712_1_alg».proof.Proof.Gen.KernelIdeal
import proofs.«408911_j78589311582712_1_alg».proof.Proof.Gen.KernelIdeal.Skeleton
import proofs.«408911_j78589311582712_1_alg».proof.Proof.Gen.KernelIdeal.Launch
import proofs.«408911_j78589311582712_1_alg».proof.Proof.Gen.KernelIdeal.Points
import proofs.«408911_j78589311582712_1_alg».proof.Proof.Gen.KernelIdeal.Frame
import proofs.«408911_j78589311582712_1_alg».proof.Proof.Gen.ReferenceIdeal
import proofs.«408911_j78589311582712_1_alg».proof.Proof.Gen.Pre_finite_inputs
import proofs.«408911_j78589311582712_1_alg».proof.Proof.KernelRun
import proofs.«408911_j78589311582712_1_alg».proof.Proof.KernelChain
import proofs.«408911_j78589311582712_1_alg».proof.Proof.RefRun
import proofs.«408911_j78589311582712_1_alg».proof.Proof.RefCompose
import proofs.«408911_j78589311582712_1_alg».proof.Proof.TakeMask
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- The ideal pass rewrote nothing in this kernel. -/
theorem preserves : Cert.preserves_Kernel_KernelIdeal := trivial

/-- Both programs end with the result at `Terms.outOf` of the arguments: the kernel by its run read boundary by boundary,
    the reference by its run's term recognised as the same composition, the two gathers agreeing because every source
    index is in range. -/
theorem algebraic : Cert.algebraic_KernelIdeal_ReferenceIdeal := by
  intro m ρ m' ρ' hpre hagree
  refine ⟨fun c => Cert.KernelIdeal.Terms.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.RunCopy.run (F := Ideal) m' ρ')
    rw [Cert.ReferenceIdeal.Compose.res_eq]
    obtain ⟨e0, e1, e2, e3, e4, e5, e6, e7, e8, e9, e10⟩ := hagree c
    rw [e0, e1, e2, e3, e4, e5, e6, e7, e8, e9, e10]
    exact Cert.ReferenceIdeal.Compose.outOf_eq _ _ _ _ _ _ _ _ _ _ _ (Cert.KernelIdeal.Take.inRange_of_pre m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
